-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![1, 0] · slices_S2x800000_S1x800000_1_0) main_arg1
  let main_v70 : IVec S800000 32 := shapeCast S800000 main_v69 shapeCasts_S1x800000_S800000
  let main_c_26 : IVec S_ 32 := constantI S_ 32 4294917296#32
  let main_v71 : IVec S800000 32 := broadcastInDim S800000 ![] bcast_S_S800000 main_c_26
  let main_v72 : IVec S800000 1 := cmpi .sge main_v70 main_v71
  let main_v73 : IVec S1x800000 32 := (extractStridedSlice S1x800000 ![1, 0] · slices_S2x800000_S1x800000_1_0) main_arg1
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg1 : IVec S2x800000 32) (main_arg12 : FVec F S128 .f32) (main_arg13 : FVec F S128x64 .f32) (main_arg14 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_v63 main_v67

def fn_part2 {F : FTy → Type} [FloatOps F] (main_arg1 : IVec S2x800000 32) (main_arg8 : FVec F S128 .f32) (main_arg9 : FVec F S128x64 .f32) (main_arg10 : FVec F S64 .f32) (main_arg11 : FVec F S128x128 .f32) (main_arg12 : FVec F S128 .f32) (main_arg13 : FVec F S128x64 .f32) (main_arg14 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : IVec S2x800000 32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S128x128 .f32) (main_arg12 : FVec F S128 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x64 .f32) (main_arg1 : IVec S2x800000 32) (main_arg2 : FVec F S800000x64 .f32) (main_arg3 : FVec F S128x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S128x128 .f32) (main_arg12 : FVec F S128 .f32) (main_arg13 : FVec F S128x64 .f32) (main_arg14 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S16000x64 : Shape := ⟨2, ![16000, 64]⟩
abbrev S16000x1 : Shape := ⟨2, ![16000, 1]⟩
abbrev S16000x128 : Shape := ⟨2, ![16000, 128]⟩
abbrev S1x128 : Shape := ⟨2, ![1, 128]⟩
abbrev S1x64 : Shape := ⟨2, ![1, 64]⟩
abbrev S50000x128 : Shape := ⟨2, ![50000, 128]⟩
abbrev S10000x128 : Shape := ⟨2, ![10000, 128]⟩
abbrev S10000x64 : Shape := ⟨2, ![10000, 64]⟩

abbrev nBuf : Space → Nat
  | .hbm => 56
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x64, .f32⟩
  | .hbm, ⟨38, _⟩ => ⟨S800000x64, .i1⟩
  | .hbm, ⟨39, _⟩ => ⟨S_, .f32⟩
  | .hbm, ⟨40, _⟩ => ⟨S800000x64, .f32⟩
  | .hbm, ⟨41, _⟩ => ⟨S800000x64, .f32⟩
  | .hbm, ⟨42, _⟩ => ⟨S128x128, .bf16⟩
  | .hbm, ⟨43, _⟩ => ⟨S128x64, .bf16⟩
  | .hbm, ⟨44, _⟩ => ⟨S128x128, .bf16⟩
  | .hbm, ⟨45, _⟩ => ⟨S128x64, .bf16⟩
  | .hbm, ⟨46, _⟩ => ⟨S128x128, .bf16⟩
  | .hbm, ⟨47, _⟩ => ⟨S128x64, .bf16⟩
  | .hbm, ⟨48, _⟩ => ⟨S800000x1, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S16000x1, .i32⟩
  | .local _ .vmem, ⟨5, _⟩ => ⟨S16000x1, .i32⟩
  | .local _ .vmem, ⟨6, _⟩ => ⟨S16000x1, .i32⟩
  | .local _ .vmem, ⟨7, _⟩ => ⟨S16000x1, .i32⟩
  | .local _ .vmem, ⟨8, _⟩ => ⟨S128x128, .bf16⟩
  | .local _ .vmem, ⟨9, _⟩ => ⟨S128, .f32⟩
  | .local _ .vmem, ⟨10, _⟩ => ⟨S128x64, .bf16⟩
  | .local _ .vmem, ⟨11, _⟩ => ⟨S64, .f32⟩
  | .local _ .vmem, ⟨12, _⟩ => ⟨S128x128, .bf16⟩
  | .local _ .vmem, ⟨13, _⟩ => ⟨S128, .f32⟩
  | .local _ .vmem, ⟨14, _⟩ => ⟨S128x64, .bf16⟩
  | .local _ .vmem, ⟨15, _⟩ => ⟨S64, .f32⟩
  | .local _ .vmem, ⟨16, _⟩ => ⟨S16000x128, .f32⟩
  | .local _ .vmem, ⟨17, _⟩ => ⟨S16000x128, .f32⟩
  | .local _ .vmem, ⟨18, _⟩ => ⟨S10000x128, .f32⟩
  | .local _ .vmem, ⟨19, _⟩ => ⟨S10000x128, .f32⟩
  | .local _ .vmem, ⟨20, _⟩ => ⟨S128x128, .bf16⟩
  | .local _ .vmem, ⟨21, _⟩ => ⟨S128, .f32⟩
  | .local _ .vmem, ⟨22, _⟩ => ⟨S128x64, .bf16⟩
  | .local _ .vmem, ⟨23, _⟩ => ⟨S64, .f32⟩
  | .local _ .vmem, ⟨24, _⟩ => ⟨S10000x64, .f32⟩
  | .local _ .vmem, ⟨25, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bitsLt_bf16_f32 : FTy.bits .bf16 < FTy.bits .f32
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  concatenates_S16000x64_S16000x64_S16000x128_d1 : Shape.Concatenates [S16000x64, S16000x64] S16000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S16000x128 : S1x128.Broadcasts S16000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  natLt_1_32 : 1 < 32
  broadcasts_S16000x1_S16000x64 : S16000x1.Broadcasts S16000x64
  inb_S16000x128_S16000x128_0_0 : ∀ a, (![0, 0] : Fin 2 → Nat) a + S16000x128.size a ≤ S16000x128.size a
  h_S16000x128 : 0 < S16000x128.numel
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x64_S800000x1_S800000x64_1_0_n_n_0_1_164_wf : GatherDims.WF S50000x64 S800000x1 S800000x64 [1] [0] [] [0] [] 1 ![1, 64]
  dot_S16000x128_S128x128_S16000x128_1_0_0_1_n_n_wf : DotDims.WF S16000x128 S128x128 S16000x128 [1] [0] [0] [1] [] []
  dot_S16000x128_S128x64_S16000x64_1_0_0_1_n_n_wf : DotDims.WF S16000x128 S128x64 S16000x64 [1] [0] [0] [1] [] []
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S800000x64.size a
  hwx0_1 : ∀ i : grid0.Coords, EltTy.bits .f32 = 32 ∨ (Rect.block (s := S800000x64) S16000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x1.size a ≤ S800000x1.size a
  hwx0_2 : ∀ i : grid0.Coords, EltTy.bits .i32 = 32 ∨ (Rect.block (s := S800000x1) S16000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x1.size a ≤ S800000x1.size a
  hwx0_3 : ∀ i : grid0.Coords, EltTy.bits .i32 = 32 ∨ (Rect.block (s := S800000x1) S16000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .bf16 = 32 ∨ (Rect.block (s := S128x64) S128x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16000x128.size a ≤ S800000x128.size a
  hwx0_12 : ∀ i : grid0.Coords, EltTy.bits .f32 = 32 ∨ (Rect.block (s := S800000x128) S16000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v4) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S16000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v16) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x128, .f32⟩
  | .hbm, ⟨29, _⟩ => ⟨S800000, .i1⟩
  | .hbm, ⟨30, _⟩ => ⟨S800000, .f32⟩
  | .hbm, ⟨31, _⟩ => ⟨S800000x1, .f32⟩
  | .hbm, ⟨32, _⟩ => ⟨S800000, .i1⟩
  | .hbm, ⟨33, _⟩ => ⟨S800000, .f32⟩
  | .hbm, ⟨34, _⟩ => ⟨S800000x1, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S800000x64, .f32⟩
  | .hbm, ⟨48, _⟩ => ⟨S800000x64, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S800000x128, .f32⟩
  | .hbm, ⟨56, _⟩ => ⟨S1x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S800000x64, .f32⟩
  | .hbm, ⟨63, _⟩ => ⟨S1x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S800000x64, .f32⟩
  | .hbm, ⟨68, _⟩ => ⟨S800000x64, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call2_cst : Ref sig .tc := ⟨.hbm, 59, rfl⟩
abbrev main_call2_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call3_cst : Ref sig .tc := ⟨.hbm, 66, rfl⟩
abbrev main_call3_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_1 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call4_cst : Ref sig .tc := ⟨.hbm, 80, rfl⟩
abbrev main_call4_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call5_cst : Ref sig .tc := ⟨.hbm, 87, rfl⟩
abbrev main_call5_v0 : Ref sig .tc := ⟨.hbm, 88, rfl⟩
abbrev main_v58 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, row by row, on the extended reals.

  A two-layer perceptron maps a row `h` to `relu (relu (h · W₁ + b₁) · W₂ + b₂)`. Each edge `e` has the input row
  `[x[col e] | edge_attr e]`; its two messages are the perceptrons `out` and `in` of that row, the first kept where
  `row e < col e`, the second where `row e > col e` (a factor that is `0` or `1`). Node `n` receives the sum of the
  messages of the edges whose row identifier is `n`, as the 128-wide row `[Σ in | Σ out]`, and the result is the node
  perceptron of that row.
-/
import Idealize.ShloMosaic.PureOps.Ideal
import Idealize.ShloMosaic.Lib.ValueIdx

noncomputable section

namespace Cert.Flow

open Idealize.ShloMosaic Idealize.ShloMosaic.ValueIdx

/-- A dense layer followed by the rectifier, on one row: `n ↦ max (Σₖ h k · W k n + b n) 0`. -/
def layer {K N : Nat} (h : Fin K → EReal) (W : (⟨2, ![K, N]⟩ : Shape).Idx → EReal)
    (b : (⟨1, ![N]⟩ : Shape).Idx → EReal) : Fin N → EReal :=
  fun n => max ((∑ k : Fin K, h k * W (ix2 k n)) + b (ix1 n)) 0

/-- The two-layer perceptron `128 → 128 → 64` on one row. -/
def mlp (h : Fin 128 → EReal) (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) : Fin 64 → EReal :=
  layer (layer h W1 b1) W2 b2

/-- Two 64-wide rows side by side. -/
def join (a b : Fin 64 → EReal) : Fin 128 → EReal :=
  fun j => if h : j.val < 64 then a ⟨j.val, h⟩ else b ⟨j.val - 64, by have := j.isLt; omega⟩

/-- `1` where `r < c` as signed integers, else `0`. -/
def lt01 (r c : BitVec 32) : EReal := FloatOps.uitofp (F := Ideal) .f32 (IntOp.cmpi .slt r c)
/-- `1` where `r > c` as signed integers, else `0`. -/
def gt01 (r c : BitVec 32) : EReal := FloatOps.uitofp (F := Ideal) .f32 (IntOp.cmpi .sgt r c)

/-- One edge's 128-wide message row `[in · [r > c] | out · [r < c]]` from its gathered node row `xc`, its attribute
    row `ea` and its two identifiers. -/
def msgRow (xc ea : Fin 64 → EReal) (r c : BitVec 32)
    (Wo1 : (⟨2, ![128, 128]⟩ : Shape).Idx → EReal) (bo1 : (⟨1, ![128]⟩ : Shape).Idx → EReal)
    (Wo2 : (⟨2, ![128, 64]⟩ : Shape).Idx → EReal) (bo2 : (⟨1, ![64]⟩ : Shape).Idx → EReal)
    (Wi1 : (⟨2, ![128, 128]⟩ : Shape).Idx → EReal) (bi1 : (⟨1, ![128]⟩ : Shape).Idx → EReal)
    (Wi2 : (⟨2, ![128, 64]⟩ : Shape).Idx → EReal) (bi2 : (⟨1, ![64]⟩ : Shape).Idx → EReal) : Fin 128 → EReal :=
  join (fun q => mlp (join xc ea) Wi1 bi1 Wi2 bi2 q * gt01 r c) (fun q => mlp (join xc ea) Wo1 bo1 Wo2 bo2 q * lt01 r c)

/-- The sum of `u e` over the edges `e` whose identifier `rid e`, read as a signed integer, is `n`. -/
def segSum {E : Nat} (rid : Fin E → BitVec 32) (u : Fin E → EReal) (n : Nat) : EReal :=
  ∑ e : Fin E, if (rid e).toInt = (n : Int) then u e else 0

/-- Every edge's message row, from the gathered node rows `xcol`, the attributes `ea` and the identifier columns. -/
def msgs (xcol ea : (⟨2, ![800000, 64]⟩ : Shape).Idx → EReal) (rid cid : Fin 800000 → BitVec 32)
    (Wo1 : (⟨2, ![128, 128]⟩ : Shape).Idx → EReal) (bo1 : (⟨1, ![128]⟩ : Shape).Idx → EReal)
    (Wo2 : (⟨2, ![128, 64]⟩ : Shape).Idx → EReal) (bo2 : (⟨1, ![64]⟩ : Shape).Idx → EReal)
    (Wi1 : (⟨2, ![128, 128]⟩ : Shape).Idx → EReal) (bi1 : (⟨1, ![128]⟩ : Shape).Idx → EReal)
    (Wi2 : (⟨2, ![128, 64]⟩ : Shape).Idx → EReal) (bi2 : (⟨1, ![64]⟩ : Shape).Idx → EReal) :
    (⟨2, ![800000, 128]⟩ : Shape).Idx → EReal :=
  fun i => msgRow (fun q => xcol (ix2 (i 0) q)) (fun q => ea (ix2 (i 0) q)) (rid (i 0)) (cid (i 0))
    Wo1 bo1 Wo2 bo2 Wi1 bi1 Wi2 bi2 (i 1)

/-- Every node's 128-wide flow row: the messages summed over the edges whose row identifier is the node. -/
def flow (rid : Fin 800000 → BitVec 32) (M : (⟨2, ![800000, 128]⟩ : Shape).Idx → EReal) :
    (⟨2, ![50000, 128]⟩ : Shape).Idx → EReal :=
  fun i => 0 + segSum rid (fun e => M (ix2 e (i 1))) (i 0).val

/-- The node perceptron of every flow row. -/
def nodes (Fl : (⟨2, ![50000, 128]⟩ : Shape).Idx → EReal)
    (Wn1 : (⟨2, ![128, 128]⟩ : Shape).Idx → EReal) (bn1 : (⟨1, ![128]⟩ : Shape).Idx → EReal)
    (Wn2 : (⟨2, ![128, 64]⟩ : Shape).Idx → EReal) (bn2 : (⟨1, ![64]⟩ : Shape).Idx → EReal) :
    (⟨2, ![50000, 64]⟩ : Shape).Idx → EReal :=
  fun i => mlp (fun j => Fl (ix2 (i 0) j)) Wn1 bn1 Wn2 bn2 (i 1)

/-- The whole result, from the gathered node rows. -/
def result (xcol ea : (⟨2, ![800000, 64]⟩ : Shape).Idx → EReal) (rid cid : Fin 800000 → BitVec 32)
    (Wo1 : (⟨2, ![128, 128]⟩ : Shape).Idx → EReal) (bo1 : (⟨1, ![128]⟩ : Shape).Idx → EReal)
    (Wo2 : (⟨2, ![128, 64]⟩ : Shape).Idx → EReal) (bo2 : (⟨1, ![64]⟩ : Shape).Idx → EReal)
    (Wi1 : (⟨2, ![128, 128]⟩ : Shape).Idx → EReal) (bi1 : (⟨1, ![128]⟩ : Shape).Idx → EReal)
    (Wi2 : (⟨2, ![128, 64]⟩ : Shape).Idx → EReal) (bi2 : (⟨1, ![64]⟩ : Shape).Idx → EReal)
    (Wn1 : (⟨2, ![128, 128]⟩ : Shape).Idx → EReal) (bn1 : (⟨1, ![128]⟩ : Shape).Idx → EReal)
    (Wn2 : (⟨2, ![128, 64]⟩ : Shape).Idx → EReal) (bn2 : (⟨1, ![64]⟩ : Shape).Idx → EReal) :
    (⟨2, ![50000, 64]⟩ : Shape).Idx → EReal :=
  nodes (flow rid (msgs xcol ea rid cid Wo1 bo1 Wo2 bo2 Wi1 bi1 Wi2 bi2)) Wn1 bn1 Wn2 bn2

/-- The row identifier of edge `e`: entry `(0, e)` of the `2 × E` identifier array. -/
def rowId (x1 : (⟨2, ![2, 800000]⟩ : Shape).Idx → BitVec 32) (e : Fin 800000) : BitVec 32 := x1 (ix2 (0 : Fin 2) e)
/-- The column identifier of edge `e`: entry `(1, e)`. -/
def colId (x1 : (⟨2, ![2, 800000]⟩ : Shape).Idx → BitVec 32) (e : Fin 800000) : BitVec 32 := x1 (ix2 (1 : Fin 2) e)

/-- An index into an axis of extent 50000 with a negative one counted from the end: `c + 50000` when `c < 0`. -/
def normIdx (c : BitVec 32) : BitVec 32 := Scalar.select (IntOp.cmpi .slt c 0#32) (IntOp.addi c 50000#32) c

/-- The `E × 1` column of normalised column identifiers: the start indices of the row gather. -/
def colIdx (x1 : (⟨2, ![2, 800000]⟩ : Shape).Idx → BitVec 32) : IVec ⟨2, ![800000, 1]⟩ 32 :=
  fun i => normIdx (colId x1 (i 0))

theorem ofBool_eq_one (b : Bool) : BitVec.ofBool b = 1#1 ↔ b = true := by cases b <;> decide

theorem andi_one (c d : BitVec 1) : IntOp.andi c d = 1#1 ↔ c = 1#1 ∧ d = 1#1 := by revert c d; decide

/-- An identifier in `[-50000, 50000)` normalises into `[0, 49999]`: for `c < 0` the sum `c + 50000` does not wrap. -/
theorem inRange_of_bounds (c : BitVec 32) (h1 : IntOp.cmpi .sge c 4294917296#32 = 1#1)
    (h2 : IntOp.cmpi .slt c 50000#32 = 1#1) :
    IntOp.andi (IntOp.cmpi .sge (normIdx c) 0#32) (IntOp.cmpi .sle (normIdx c) 49999#32) = 1#1 := by
  simp only [IntOp.cmpi, ofBool_eq_one] at h1 h2
  rw [BitVec.sle_iff_toInt_le] at h1
  rw [BitVec.slt_iff_toInt_lt] at h2
  have e1 : (4294917296#32 : BitVec 32).toInt = -50000 := by decide
  have e2 : (50000#32 : BitVec 32).toInt = 50000 := by decide
  rw [e1] at h1; rw [e2] at h2
  rw [andi_one]
  unfold normIdx
  by_cases hneg : c.toInt < 0
  · have hs : IntOp.cmpi .slt c 0#32 = 1#1 := by
      simp only [IntOp.cmpi, ofBool_eq_one, BitVec.slt_iff_toInt_lt]; simpa using hneg
    rw [hs, ValueIdx.select_one]
    have ha : (IntOp.addi c 50000#32).toInt = c.toInt + 50000 := by
      show (c + 50000#32).toInt = _
      rw [BitVec.toInt_add, e2, Int.bmod_def]
      norm_num
      split <;> omega
    constructor
    · simp only [IntOp.cmpi, ofBool_eq_one, BitVec.sle_iff_toInt_le, ha]; simp; omega
    · simp only [IntOp.cmpi, ofBool_eq_one, BitVec.sle_iff_toInt_le, ha]
      rw [show (49999#32 : BitVec 32).toInt = 49999 by decide]; omega
  · have hs : IntOp.cmpi .slt c 0#32 = 0#1 := by
      apply ValueIdx.eq_zero_of_ne_one
      simp only [IntOp.cmpi, ofBool_eq_one, BitVec.slt_iff_toInt_lt]; simpa using hneg
    rw [hs, ValueIdx.select_zero]
    constructor
    · simp only [IntOp.cmpi, ofBool_eq_one, BitVec.sle_iff_toInt_le]; simp; omega
    · simp only [IntOp.cmpi, ofBool_eq_one, BitVec.sle_iff_toInt_le]
      rw [show (49999#32 : BitVec 32).toInt = 49999 by decide]; omega

/-- A one-bit word widened to 32 bits and read signed is the bit read unsigned: both are `0` or `1`. -/
theorem sitofp_setWidth_bit (b : BitVec 1) :
    FloatOps.sitofp (F := Ideal) .f32 (b.setWidth 32) = FloatOps.uitofp (F := Ideal) .f32 b := by
  have hb : b = 0#1 ∨ b = 1#1 := by
    rcases Nat.lt_or_ge b.toNat 1 with h | h
    · left; exact BitVec.eq_of_toNat_eq (by simpa using Nat.lt_one_iff.mp h)
    · right; have := b.isLt; exact BitVec.eq_of_toNat_eq (by simp; omega)
  rcases hb with rfl | rfl
  · show (((((0#1 : BitVec 1).setWidth 32).toInt : ℝ) : EReal)) = (((0#1 : BitVec 1).toNat : ℝ) : EReal)
    rw [show ((0#1 : BitVec 1).setWidth 32).toInt = 0 by decide, show (0#1 : BitVec 1).toNat = 0 by decide]
    norm_num
  · show (((((1#1 : BitVec 1).setWidth 32).toInt : ℝ) : EReal)) = (((1#1 : BitVec 1).toNat : ℝ) : EReal)
    rw [show ((1#1 : BitVec 1).setWidth 32).toInt = 1 by decide, show (1#1 : BitVec 1).toNat = 1 by decide]
    norm_num

end Cert.Flow

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.EdgeBody.lean ====
import proofs.«403569_j42047729828006_3_alg».proof.Proof.Gen.KernelIdeal.Frame
import proofs.«403569_j42047729828006_3_alg».proof.Proof.Spec
import proofs.«403569_j42047729828006_3_alg».proof.Proof.LibPlainMatmul
import Idealize.ShloMosaic.Lib.Pipeline.Value
import Idealize.ShloMosaic.Lib.ValueLayout
import Idealize.ShloMosaic.PureOps.Ideal.Laws

noncomputable section

namespace Cert.KernelIdeal.EdgeBody

open Idealize.ShloMosaic Idealize.ShloMosaic.TcCoe Idealize.ShloMosaic.ValueIdx Idealize.SL.Sem Cert.KernelIdeal Cert.KernelIdeal.Gen Cert.Flow

/-- The one-axis offset list of zeros is the zero function. -/
theorem zeros1 : (![0] : Fin 1 → Nat) = fun _ => 0 := funext fun a => by
  match a with
  | ⟨0, _⟩ => rfl

/-- The two-axis offset list of zeros is the zero function. -/
theorem zeros2 : (![0, 0] : Fin 2 → Nat) = fun _ => 0 := funext fun a => by
  match a with
  | ⟨0, _⟩ => rfl
  | ⟨1, _⟩ => rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[n]` cast to a row `[1, n]` and broadcast to `[m, n]` reads, at `(r, c)`, the vector at `c`. -/
theorem biasRow_apply {α : Type} {m n : ℕ} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (c : Fin n) :
    broadcastTo ⟨2, ![m, n]⟩ (shapeCast ⟨2, ![1, n]⟩ b h1) h2 (ix2 r c) = b (ix1 c) := by
  rw [broadcastTo_1b_ab_apply, shapeCast_a_1a_apply]

/-- A dense layer with the rectifier, read at `(r, n)`: the layer of row `r`. -/
theorem dense_apply (M K N : ℕ) (D : DotDims ⟨2, ![M, K]⟩ ⟨2, ![K, N]⟩ ⟨2, ![M, N]⟩) (hD : D = DotDims.plain M K N)
    (h : FVec Ideal ⟨2, ![M, K]⟩ .bf16) (W : FVec Ideal ⟨2, ![K, N]⟩ .bf16) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (n : Fin N) :
    maximumf (addf (matmul D none h W (constant (F := Ideal) ⟨2, ![M, N]⟩ .f32 0x00000000#32))
        (broadcastTo ⟨2, ![M, N]⟩ (shapeCast ⟨2, ![1, N]⟩ b h1) h2))
      (broadcast ⟨2, ![M, N]⟩ (Scalar.ofBits (F := Ideal) .f32 0x00000000#32)) (ix2 r n)
      = layer (fun k => h (ix2 r k)) W b n := by
  subst hD
  rw [maximumf_apply, addf_apply, broadcast_apply, biasRow_apply]
  simp only [matmul]
  rw [Idealize.ShloMosaic.PlainMatmul.matmul_plain_zero_apply]
  show max _ (Ideal.ofBits .f32 0x00000000#32) = _
  rw [Ideal.ofBits_zero_f32]
  rfl

/-- The concatenated input row `[x0 | x1]` of row `r`, read at `k`. -/
theorem pay2_apply (x0 x1 : Vec Ideal S16000x64 .f32) (r : Fin 16000) (k : Fin 128) :
    k0_pay2 (F := Ideal) x0 x1 (ix2 r k) = join (fun q => x0 (ix2 r q)) (fun q => x1 (ix2 r q)) k := by
  unfold k0_pay2
  rw [truncf_apply, shapeCast_self]
  unfold join
  by_cases hk : k.val < 64
  · rw [dif_pos hk]
    exact concatenate_pair_apply_left (1 : Fin 2) x0 x1 _ (ix2 r k) rfl (ix2 r ⟨k.val, hk⟩)
      (fun b => by
        match b with
        | ⟨0, _⟩ => rfl
        | ⟨1, _⟩ => rfl)
  · rw [dif_neg hk]
    exact concatenate_pair_apply_right (1 : Fin 2) x0 x1 _ (ix2 r k) rfl rfl
      (ix2 r ⟨k.val - 64, by have := k.isLt; omega⟩)
      (fun b hb => by
        match b, hb with
        | ⟨0, _⟩, _ => rfl
        | ⟨1, _⟩, hb => exact absurd rfl hb)
      (by show (k.val - 64) + 64 = k.val; omega)

/-- The two-layer perceptron payload at `(r, q)`: the perceptron of the concatenated row `r`. -/
theorem pay3_apply (x0 x1 : Vec Ideal S16000x64 .f32) (W1 : Vec Ideal S128x128 .bf16) (b1 : Vec Ideal S128 .f32)
    (W2 : Vec Ideal S128x64 .bf16) (b2 : Vec Ideal S64 .f32) (r : Fin 16000) (q : Fin 64) :
    k0_pay3 (F := Ideal) x0 x1 W1 b1 W2 b2 (ix2 r q)
      = mlp (join (fun q => x0 (ix2 r q)) (fun q => x1 (ix2 r q))) W1 b1 W2 b2 q := by
  unfold k0_pay3
  simp only [shapeCast_self]
  refine (dense_apply 16000 128 64 _ rfl _ _ _ _ _ r q).trans ?_
  unfold mlp
  refine congrArg (fun h => layer h W2 b2 q) (funext fun k => ?_)
  rw [truncf_apply]
  refine (dense_apply 16000 128 128 _ rfl _ _ _ _ _ r k).trans ?_
  refine congrArg (fun h => layer h W1 b1 k) (funext fun k' => ?_)
  exact pay2_apply x0 x1 r k'

/-- The second perceptron's last product, before its bias and rectifier, at `(r, q)`. -/
theorem pay4_apply (x0 x1 : Vec Ideal S16000x64 .f32) (W1 : Vec Ideal S128x128 .bf16) (b1 : Vec Ideal S128 .f32)
    (W2 : Vec Ideal S128x64 .bf16) (r : Fin 16000) (q : Fin 64) :
    k0_pay4 (F := Ideal) x0 x1 W1 b1 W2 (ix2 r q)
      = ∑ k : Fin 128, layer (join (fun q => x0 (ix2 r q)) (fun q => x1 (ix2 r q))) W1 b1 k * W2 (ix2 k q) := by
  unfold k0_pay4
  simp only [shapeCast_self, matmul]
  show FloatOps.matmul (DotDims.plain 16000 128 64) none _ _ (constant (F := Ideal) _ .f32 0x00000000#32) (ix2 r q) = _
  rw [Idealize.ShloMosaic.PlainMatmul.matmul_plain_zero_apply]
  refine Finset.sum_congr rfl fun k _ => ?_
  refine congrArg (fun t => t * W2 (ix2 k q)) ?_
  rw [truncf_apply]
  refine (dense_apply 16000 128 128 _ rfl _ _ _ _ _ r k).trans ?_
  refine congrArg (fun h => layer h W1 b1 k) (funext fun k' => ?_)
  exact pay2_apply x0 x1 r k'

/-- The stored row at `(r, j)`: the second perceptron's output masked by `[row > col]` beside the first's masked by
    `[row < col]`. -/
theorem pay1_apply (v23 v36 : FVec Ideal S16000x64 .f32) (v37 : Vec Ideal S64 .f32) (v43 v45 : Vec Ideal S16000x1 .i32)
    (r : Fin 16000) (j : Fin 128) :
    k0_pay1 (F := Ideal) v23 v36 v37 v43 v45 (ix2 r j)
      = join (fun q => max (v36 (ix2 r q) + v37 (ix1 q)) 0 * gt01 (v43 (ix2 r (0 : Fin 1))) (v45 (ix2 r (0 : Fin 1))))
          (fun q => v23 (ix2 r q) * lt01 (v43 (ix2 r (0 : Fin 1))) (v45 (ix2 r (0 : Fin 1)))) j := by
  unfold k0_pay1
  simp only [shapeCast_self]
  unfold join
  by_cases hj : j.val < 64
  · rw [dif_pos hj]
    refine (concatenate_pair_apply_left (t := S16000x128) (s₁ := S16000x64) (s₂ := S16000x64) (1 : Fin 2) _ _ _ (ix2 r j) rfl (ix2 r ⟨j.val, hj⟩)
      (fun b => by
        match b with
        | ⟨0, _⟩ => rfl
        | ⟨1, _⟩ => rfl)).trans ?_
    rw [mulf_apply, maximumf_apply, addf_apply, broadcast_apply, biasRow_apply, broadcastTo_a1_ab_apply, sitofp_apply,
      extui_apply]
    show max (_ + _) (Ideal.ofBits .f32 0x00000000#32)
      * FloatOps.sitofp (F := Ideal) .f32 ((IntOp.cmpi .sgt (v43 (ix2 r (0 : Fin 1))) (v45 (ix2 r (0 : Fin 1)))).setWidth 32) = _
    rw [Ideal.ofBits_zero_f32, sitofp_setWidth_bit]
    rfl
  · rw [dif_neg hj]
    refine (concatenate_pair_apply_right (t := S16000x128) (s₁ := S16000x64) (s₂ := S16000x64) (1 : Fin 2) _ _ _ (ix2 r j) rfl rfl
      (ix2 r ⟨j.val - 64, by have := j.isLt; omega⟩)
      (fun b hb => by
        match b, hb with
        | ⟨0, _⟩, _ => rfl
        | ⟨1, _⟩, hb => exact absurd rfl hb)
      (by show (j.val - 64) + 64 = j.val; omega)).trans ?_
    rw [mulf_apply, broadcastTo_a1_ab_apply, sitofp_apply, extui_apply]
    show _ * FloatOps.sitofp (F := Ideal) .f32 ((IntOp.cmpi .slt (v43 (ix2 r (0 : Fin 1))) (v45 (ix2 r (0 : Fin 1)))).setWidth 32) = _
    rw [sitofp_setWidth_bit]
    rfl

/-- What the edge kernel's body leaves in its output block, entry `(r, j)`: the message row of the block's row `r`. -/
theorem out0_12_apply (x0 x1 : Vec Ideal S16000x64 .f32) (x2 x3 : Vec Ideal S16000x1 .i32)
    (x4 : Vec Ideal S128x128 .bf16) (x5 : Vec Ideal S128 .f32) (x6 : Vec Ideal S128x64 .bf16) (x7 : Vec Ideal S64 .f32)
    (x8 : Vec Ideal S128x128 .bf16) (x9 : Vec Ideal S128 .f32) (x10 : Vec Ideal S128x64 .bf16) (x11 : Vec Ideal S64 .f32)
    (r : Fin 16000) (j : Fin 128) :
    out0_12 (F := Ideal) x0 x1 x2 x3 x4 x5 x6 x7 x8 x9 x10 x11 (ix2 r j)
      = msgRow (fun q => x0 (ix2 r q)) (fun q => x1 (ix2 r q)) (x2 (ix2 r (0 : Fin 1))) (x3 (ix2 r (0 : Fin 1)))
          x4 x5 x6 x7 x8 x9 x10 x11 j := by
  unfold out0_12
  rw [View.canon_unit_zero zeros2]
  simp only [View.ld_unit_zero (S := S16000x64) zeros2, View.ld_unit_zero (S := S16000x1) zeros2,
    View.ld_unit_zero (S := S128x128) zeros2, View.ld_unit_zero (S := S128x64) zeros2,
    View.ld_unit_zero (S := S128) zeros1, View.ld_unit_zero (S := S64) zeros1]
  rw [pay1_apply]
  unfold msgRow
  refine congrArg₂ (fun a b => join a b j) (funext fun q => ?_) (funext fun q => ?_)
  · rw [pay4_apply]
    rfl
  · rw [pay3_apply]

end Cert.KernelIdeal.EdgeBody

end
-- ==== Proof.EdgeArray.lean ====
import proofs.«403569_j42047729828006_3_alg».proof.Proof.Gen.KernelIdeal.Frame
import proofs.«403569_j42047729828006_3_alg».proof.Proof.Spec
import proofs.«403569_j42047729828006_3_alg».proof.Proof.EdgeBody
import Idealize.ShloMosaic.Lib.Pipeline.Value

noncomputable section

namespace Cert.KernelIdeal.EdgeArray

open Idealize.ShloMosaic Idealize.ShloMosaic.TcCoe Idealize.ShloMosaic.ValueIdx Idealize.SL.Sem Cert.KernelIdeal Cert.KernelIdeal.Gen Cert.Flow

variable (V : (c : Dev nD) → (b : Ref sig .tc) → Buf (Elt Ideal) ((c : Thread nD τ).loc b))

/-- Where each window's block sits at grid point `t`: the row-blocked windows (the two 64-wide inputs, the two identifier
    columns and the output) at block row `t`, block column `0`; the weights and biases at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = t.val ∧ win0_12.index t (1 : Fin 2) = 0 :=
  (by decide +kernel : ∀ t : Fin grid0.N, _)

/-- Entry `y` of the body's output block is the message row of the block's row `y 0`, at column `y 1`. -/
theorem body_at (x0 x1 : Vec Ideal S16000x64 .f32) (x2 x3 : Vec Ideal S16000x1 .i32)
    (x4 : Vec Ideal S128x128 .bf16) (x5 : Vec Ideal S128 .f32) (x6 : Vec Ideal S128x64 .bf16) (x7 : Vec Ideal S64 .f32)
    (x8 : Vec Ideal S128x128 .bf16) (x9 : Vec Ideal S128 .f32) (x10 : Vec Ideal S128x64 .bf16) (x11 : Vec Ideal S64 .f32)
    (y : S16000x128.Idx) :
    out0_12 (F := Ideal) x0 x1 x2 x3 x4 x5 x6 x7 x8 x9 x10 x11 y
      = msgRow (fun q => x0 (ix2 (y 0) q)) (fun q => x1 (ix2 (y 0) q)) (x2 (ix2 (y 0) (0 : Fin 1))) (x3 (ix2 (y 0) (0 : Fin 1)))
          x4 x5 x6 x7 x8 x9 x10 x11 (y 1) :=
  (congrArg (out0_12 (F := Ideal) x0 x1 x2 x3 x4 x5 x6 x7 x8 x9 x10 x11) (eq_ix2 y)).trans
    (EdgeBody.out0_12_apply x0 x1 x2 x3 x4 x5 x6 x7 x8 x9 x10 x11 (y 0) (y 1))

/-- The gathered-node-row window's block at point `t` is rows `16000 · t … 16000 · t + 15999` of its array. -/
theorem xcol_block (c : Dev nD) (t : Fin cfg0.N) (r : Fin 16000) (q : Fin 64) (e : Fin 800000)
    (he : e.val = 16000 * t.val + r.val) :
    (iblk0 V c 0 t : Vec Ideal S16000x64 .f32) (ix2 r q) = (V c main_v4 : S800000x64.Idx → EReal) (ix2 e q) := by
  have hb := block_indices t
  unfold iblk0
  rw [View.read_apply]
  show V c main_v4 _ = V c main_v4 _
  congr 1
  funext a
  apply Fin.ext
  match a with
  | ⟨0, _⟩ => show win0_0.index t (0 : Fin 2) * 16000 + 1 * r.val = e.val; have := hb; omega
  | ⟨1, _⟩ => show win0_0.index t (1 : Fin 2) * 64 + 1 * q.val = q.val; have := hb; omega

/-- The attribute window's block at point `t` is rows `16000 · t … 16000 · t + 15999` of its array. -/
theorem attr_block (c : Dev nD) (t : Fin cfg0.N) (r : Fin 16000) (q : Fin 64) (e : Fin 800000)
    (he : e.val = 16000 * t.val + r.val) :
    (iblk0 V c 1 t : Vec Ideal S16000x64 .f32) (ix2 r q) = (V c main_arg2 : S800000x64.Idx → EReal) (ix2 e q) := by
  have hb := block_indices t
  unfold iblk0
  rw [View.read_apply]
  show V c main_arg2 _ = V c main_arg2 _
  congr 1
  funext a
  apply Fin.ext
  match a with
  | ⟨0, _⟩ => show win0_1.index t (0 : Fin 2) * 16000 + 1 * r.val = e.val; have := hb; omega
  | ⟨1, _⟩ => show win0_1.index t (1 : Fin 2) * 64 + 1 * q.val = q.val; have := hb; omega

/-- The row-identifier window's block at point `t` is rows `16000 · t … 16000 · t + 15999` of its column. -/
theorem rid_block (c : Dev nD) (t : Fin cfg0.N) (r : Fin 16000) (q : Fin 1) (e : Fin 800000)
    (he : e.val = 16000 * t.val + r.val) :
    (iblk0 V c 2 t : Vec Ideal S16000x1 .i32) (ix2 r q) = (V c main_v11 : S800000x1.Idx → BitVec 32) (ix2 e q) := by
  have hb := block_indices t
  unfold iblk0
  rw [View.read_apply]
  show V c main_v11 _ = V c main_v11 _
  congr 1
  funext a
  apply Fin.ext
  match a with
  | ⟨0, _⟩ => show win0_2.index t (0 : Fin 2) * 16000 + 1 * r.val = e.val; have := hb; omega
  | ⟨1, _⟩ => show win0_2.index t (1 : Fin 2) * 1 + 1 * q.val = q.val; have := hb; omega

/-- The column-identifier window's block at point `t` is rows `16000 · t … 16000 · t + 15999` of its column. -/
theorem cid_block (c : Dev nD) (t : Fin cfg0.N) (r : Fin 16000) (q : Fin 1) (e : Fin 800000)
    (he : e.val = 16000 * t.val + r.val) :
    (iblk0 V c 3 t : Vec Ideal S16000x1 .i32) (ix2 r q) = (V c main_v12 : S800000x1.Idx → BitVec 32) (ix2 e q) := by
  have hb := block_indices t
  unfold iblk0
  rw [View.read_apply]
  show V c main_v12 _ = V c main_v12 _
  congr 1
  funext a
  apply Fin.ext
  match a with
  | ⟨0, _⟩ => show win0_3.index t (0 : Fin 2) * 16000 + 1 * r.val = e.val; have := hb; omega
  | ⟨1, _⟩ => show win0_3.index t (1 : Fin 2) * 1 + 1 * q.val = q.val; have := hb; omega

/-- The out-perceptron's first weight window's block at any point is the whole array. -/
theorem wo1_block (c : Dev nD) (t : Fin cfg0.N) : (iblk0 V c 4 t : Vec Ideal S128x128 .bf16) = V c main_v5 := by
  have hb := block_indices t
  funext y
  unfold iblk0
  rw [View.read_apply]
  show V c main_v5 _ = V c main_v5 y
  congr 1
  funext a
  apply Fin.ext
  match a with
  | ⟨0, _⟩ => show win0_4.index t (0 : Fin 2) * 128 + 1 * (y 0).val = (y 0).val; have := hb; omega
  | ⟨1, _⟩ => show win0_4.index t (1 : Fin 2) * 128 + 1 * (y 1).val = (y 1).val; have := hb; omega

/-- The out-perceptron's first bias window's block at any point is the whole array. -/
theorem bo1_block (c : Dev nD) (t : Fin cfg0.N) : (iblk0 V c 5 t : Vec Ideal S128 .f32) = V c main_arg4 := by
  have hb := block_indices t
  funext y
  unfold iblk0
  rw [View.read_apply]
  show V c main_arg4 _ = V c main_arg4 y
  congr 1
  funext a
  apply Fin.ext
  match a with
  | ⟨0, _⟩ => show win0_5.index t (0 : Fin 1) * 128 + 1 * (y 0).val = (y 0).val; have := hb; omega

/-- The out-perceptron's second weight window's block at any point is the whole array. -/
theorem wo2_block (c : Dev nD) (t : Fin cfg0.N) : (iblk0 V c 6 t : Vec Ideal S128x64 .bf16) = V c main_v6 := by
  have hb := block_indices t
  funext y
  unfold iblk0
  rw [View.read_apply]
  show V c main_v6 _ = V c main_v6 y
  congr 1
  funext a
  apply Fin.ext
  match a with
  | ⟨0, _⟩ => show win0_6.index t (0 : Fin 2) * 128 + 1 * (y 0).val = (y 0).val; have := hb; omega
  | ⟨1, _⟩ => show win0_6.index t (1 : Fin 2) * 64 + 1 * (y 1).val = (y 1).val; have := hb; omega

/-- The out-perceptron's second bias window's block at any point is the whole array. -/
theorem bo2_block (c : Dev nD) (t : Fin cfg0.N) : (iblk0 V c 7 t : Vec Ideal S64 .f32) = V c main_arg6 := by
  have hb := block_indices t
  funext y
  unfold iblk0
  rw [View.read_apply]
  show V c main_arg6 _ = V c main_arg6 y
  congr 1
  funext a
  apply Fin.ext
  match a with
  | ⟨0, _⟩ => show win0_7.index t (0 : Fin 1) * 64 + 1 * (y 0).val = (y 0).val; have := hb; omega

/-- The in-perceptron's first weight window's block at any point is the whole array. -/
theorem wi1_block (c : Dev nD) (t : Fin cfg0.N) : (iblk0 V c 8 t : Vec Ideal S128x128 .bf16) = V c main_v7 := by
  have hb := block_indices t
  funext y
  unfold iblk0
  rw [View.read_apply]
  show V c main_v7 _ = V c main_v7 y
  congr 1
  funext a
  apply Fin.ext
  match a with
  | ⟨0, _⟩ => show win0_8.index t (0 : Fin 2) * 128 + 1 * (y 0).val = (y 0).val; have := hb; omega
  | ⟨1, _⟩ => show win0_8.index t (1 : Fin 2) * 128 + 1 * (y 1).val = (y 1).val; have := hb; omega

/-- The in-perceptron's first bias window's block at any point is the whole array. -/
theorem bi1_block (c : Dev nD) (t : Fin cfg0.N) : (iblk0 V c 9 t : Vec Ideal S128 .f32) = V c main_arg8 := by
  have hb := block_indices t
  funext y
  unfold iblk0
  rw [View.read_apply]
  show V c main_arg8 _ = V c main_arg8 y
  congr 1
  funext a
  apply Fin.ext
  match a with
  | ⟨0, _⟩ => show win0_9.index t (0 : Fin 1) * 128 + 1 * (y 0).val = (y 0).val; have := hb; omega

/-- The in-perceptron's second weight window's block at any point is the whole array. -/
theorem wi2_block (c : Dev nD) (t : Fin cfg0.N) : (iblk0 V c 10 t : Vec Ideal S128x64 .bf16) = V c main_v8 := by
  have hb := block_indices t
  funext y
  unfold iblk0
  rw [View.read_apply]
  show V c main_v8 _ = V c main_v8 y
  congr 1
  funext a
  apply Fin.ext
  match a with
  | ⟨0, _⟩ => show win0_10.index t (0 : Fin 2) * 128 + 1 * (y 0).val = (y 0).val; have := hb; omega
  | ⟨1, _⟩ => show win0_10.index t (1 : Fin 2) * 64 + 1 * (y 1).val = (y 1).val; have := hb; omega

/-- The in-perceptron's second bias window's block at any point is the whole array. -/
theorem bi2_block (c : Dev nD) (t : Fin cfg0.N) : (iblk0 V c 11 t : Vec Ideal S64 .f32) = V c main_arg10 := by
  have hb := block_indices t
  funext y
  unfold iblk0
  rw [View.read_apply]
  show V c main_arg10 _ = V c main_arg10 y
  congr 1
  funext a
  apply Fin.ext
  match a with
  | ⟨0, _⟩ => show win0_11.index t (0 : Fin 1) * 64 + 1 * (y 0).val = (y 0).val; have := hb; omega

/-- Every edge's message row, from the region's operand arrays as it finds them. -/
abbrev edgeRows (c : Dev nD) : S800000x128.Idx → EReal :=
  fun i : S800000x128.Idx => msgRow (fun q => V c main_v4 (ix2 (i 0) q)) (fun q => V c main_arg2 (ix2 (i 0) q))
    (V c main_v11 (ix2 (i 0) (0 : Fin 1))) (V c main_v12 (ix2 (i 0) (0 : Fin 1)))
    (V c main_v5) (V c main_arg4) (V c main_v6) (V c main_arg6)
    (V c main_v7) (V c main_arg8) (V c main_v8) (V c main_arg10) (i 1)

/-- Where entry `y` of the output block at point `t` sits in the output array: row `16000 · t + y 0`, column `y 1`. -/
theorem out_emb (t : Fin cfg0.N) (y : S16000x128.Idx) (i : S800000x128.Idx)
    (hi : i = ((cfg0.win 12).blk t).view.emb y) :
    (i 0).val = 16000 * t.val + (y 0).val ∧ (i 1).val = (y 1).val := by
  have hb := block_indices t
  subst hi
  constructor
  · show win0_12.index t (0 : Fin 2) * 16000 + 1 * (y 0).val = _; have := hb; omega
  · show win0_12.index t (1 : Fin 2) * 128 + 1 * (y 1).val = _; have := hb; omega

/-- What point `t` writes back is block `t` of the message rows. -/
theorem flushed_eq (c : Dev nD) (t : Fin cfg0.N) :
    (dat0 (F := Ideal) V c).flushed 12 t = ((cfg0.win 12).blk t).view.read (Elt Ideal) (edgeRows V c) := by
  show (cfg0.win 12).cut (grid0.coords t) ((dat0 V c).after 12 t) = _
  rw [after0_12, wo1_block, bo1_block, wo2_block, bo2_block, wi1_block, bi1_block, wi2_block, bi2_block]
  funext j
  show out0_12 (iblk0 V c 0 t) (iblk0 V c 1 t) (iblk0 V c 2 t) (iblk0 V c 3 t)
      (V c main_v5) (V c main_arg4) (V c main_v6) (V c main_arg6) (V c main_v7) (V c main_arg8) (V c main_v8) (V c main_arg10)
      ((cfg0.win 12).xinj (grid0.coords t) j)
    = edgeRows V c (((cfg0.win 12).blk t).view.emb j)
  refine (body_at _ _ _ _ _ _ _ _ _ _ _ _ _).trans ?_
  obtain ⟨h0, h1⟩ := out_emb t ((cfg0.win 12).xinj (grid0.coords t) j) _ rfl
  show msgRow _ _ _ _ _ _ _ _ _ _ _ _ _ = msgRow _ _ _ _ _ _ _ _ _ _ _ _ _
  congr 1
  · funext q
    exact xcol_block V c t _ q _ h0
  · funext q
    exact attr_block V c t _ q _ h0
  · exact rid_block V c t _ (0 : Fin 1) _ h0
  · exact cid_block V c t _ (0 : Fin 1) _ h0
  · exact Fin.ext h1.symm

/-- An index of the output array is in point `t`'s block iff each coordinate is in the block's range on its axis. -/
theorem mem_blk (t : Fin cfg0.N) (i : S800000x128.Idx) :
    i ∈ ((cfg0.win 12).blk t).view.set ↔ ∀ a : Fin 2, win0_12.index t a * S16000x128.size a ≤ (i a).val
      ∧ (i a).val < win0_12.index t a * S16000x128.size a + S16000x128.size a := by
  show i ∈ ((View.whole main_v13).slice (win0_12.rect t)).set ↔ _
  rw [View.set_slice_whole, Rect.mem_set_unit]
  exact Iff.rfl

/-- Every row of the output array is in some point's block: row `e` in that of point `e / 16000`. -/
theorem covered (i : S800000x128.Idx) :
    ∃ t : Fin cfg0.N, (cfg0.win 12).flush t = true ∧ i ∈ ((cfg0.win 12).blk t).view.set := by
  have hi0 : (i 0).val < 800000 := (i 0).isLt
  have hi1 : (i 1).val < 128 := (i 1).isLt
  have hN : cfg0.N = 50 := N_0
  refine ⟨⟨(i 0).val / 16000, by rw [hN]; omega⟩, flush0_12 _, ?_⟩
  rw [mem_blk]
  have hb := block_indices ⟨(i 0).val / 16000, by rw [hN]; omega⟩
  intro a
  match a with
  | ⟨0, _⟩ =>
    show win0_12.index _ (0 : Fin 2) * 16000 ≤ (i 0).val ∧ (i 0).val < win0_12.index _ (0 : Fin 2) * 16000 + 16000
    rw [hb.2.2.2.2.2.2.2.2.2.2.2.2.2.2.2.2.2.2.2.2.1]
    show (i 0).val / 16000 * 16000 ≤ (i 0).val ∧ (i 0).val < (i 0).val / 16000 * 16000 + 16000; omega
  | ⟨1, _⟩ =>
    show win0_12.index _ (1 : Fin 2) * 128 ≤ (i 1).val ∧ (i 1).val < win0_12.index _ (1 : Fin 2) * 128 + 128
    rw [hb.2.2.2.2.2.2.2.2.2.2.2.2.2.2.2.2.2.2.2.2.2]; omega

/-- The edge kernel's output array after its 50 grid points, from whatever the region found in its operands' arrays:
    row `e` is the message row of edge `e` (block `e / 16000` holds rows `16000 · t … 16000 · t + 15999`). -/
theorem edge_array (c : Dev nD) :
    (dat0 (F := Ideal) V c).arrAt 12 cfg0.N
      = fun i : S800000x128.Idx => msgRow (fun q => V c main_v4 (ix2 (i 0) q)) (fun q => V c main_arg2 (ix2 (i 0) q))
          (V c main_v11 (ix2 (i 0) (0 : Fin 1))) (V c main_v12 (ix2 (i 0) (0 : Fin 1)))
          (V c main_v5) (V c main_arg4) (V c main_v6) (V c main_arg6)
          (V c main_v7) (V c main_arg8) (V c main_v8) (V c main_arg10) (i 1) := by
  exact (dat0 (F := Ideal) V c).arrAt_eq_of_cover 12 (edgeRows V c) (fun t _ => flushed_eq V c t) covered

end Cert.KernelIdeal.EdgeArray

end
-- ==== Proof.NodeBody.lean ====
import proofs.«403569_j42047729828006_3_alg».proof.Proof.Gen.KernelIdeal.Frame
import proofs.«403569_j42047729828006_3_alg».proof.Proof.Spec
import proofs.«403569_j42047729828006_3_alg».proof.Proof.LibPlainMatmul
import Idealize.ShloMosaic.Lib.Pipeline.Value
import Idealize.ShloMosaic.Lib.ValueLayout
import Idealize.ShloMosaic.PureOps.Ideal.Laws

noncomputable section

namespace Cert.KernelIdeal.NodeBody

open Idealize.ShloMosaic Idealize.ShloMosaic.TcCoe Idealize.ShloMosaic.ValueIdx Idealize.SL.Sem Cert.KernelIdeal Cert.KernelIdeal.Gen Cert.Flow

/-- The zero offset of a whole-block access of a matrix. -/
theorem off2_zero : (![0, 0] : Fin 2 → Nat) = fun _ => 0 := funext fun a => by fin_cases a <;> rfl
/-- The zero offset of a whole-block access of a vector. -/
theorem off1_zero : (![0] : Fin 1 → Nat) = fun _ => 0 := funext fun a => by fin_cases a <;> rfl

/-- A bias vector `b` laid out as one row and repeated over every row reads `b n` at the entry `(r, n)`. -/
theorem bias_row_apply {R N : Nat} (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The first dense layer of the body, entry `(r, n)`: the rectified affine image of row `r` of the input block. -/
theorem hidden_apply (h : FVec Ideal S10000x128 .f32) (W : FVec Ideal S128x128 .bf16) (b : FVec Ideal S128 .f32)
    (r : Fin 10000) (n : Fin 128) :
    maximumf
      (addf
        (matmul dot_S10000x128_S128x128_S10000x128_1_0_0_1_n_n none
          (truncf .bf16 (shapeCast S10000x128 h shapeCasts_S10000x128_S10000x128) bitsLt_bf16_f32)
          (shapeCast S128x128 W shapeCasts_S128x128_S128x128) (constant S10000x128 .f32 0x00000000#32))
        (broadcastTo S10000x128 (shapeCast S1x128 b shapeCasts_S128_S1x128) broadcasts_S1x128_S10000x128))
      (broadcast S10000x128 (Scalar.ofBits .f32 0x00000000#32)) (ix2 r n)
      = layer (fun k => h (ix2 r k)) W b n := by
  rw [maximumf_apply, addf_apply, bias_row_apply, broadcast_apply, shapeCast_self, shapeCast_self]
  simp only [matmul]
  have hm : FloatOps.matmul dot_S10000x128_S128x128_S10000x128_1_0_0_1_n_n none
      (truncf .bf16 h bitsLt_bf16_f32) W (constant S10000x128 .f32 0x00000000#32) (ix2 r n)
      = ∑ k : Fin 128, h (ix2 r k) * W (ix2 k n) :=
    Idealize.ShloMosaic.PlainMatmul.matmul_plain_zero_apply 10000 128 128 none (truncf .bf16 h bitsLt_bf16_f32) W r n
  rw [hm]
  show max (_ + b (ix1 n)) (Ideal.ofBits .f32 0x00000000#32) = _
  rw [Ideal.ofBits_zero_f32]
  rfl

/-- The second dense layer of the body, entry `(r, n)`: the rectified affine image of row `r` of the hidden block. -/
theorem output_apply (h : FVec Ideal S10000x128 .f32) (W : FVec Ideal S128x64 .bf16) (b : FVec Ideal S64 .f32)
    (r : Fin 10000) (n : Fin 64) :
    maximumf
      (addf
        (matmul dot_S10000x128_S128x64_S10000x64_1_0_0_1_n_n none
          (truncf .bf16 h bitsLt_bf16_f32)
          (shapeCast S128x64 W shapeCasts_S128x64_S128x64) (constant S10000x64 .f32 0x00000000#32))
        (broadcastTo S10000x64 (shapeCast S1x64 b shapeCasts_S64_S1x64) broadcasts_S1x64_S10000x64))
      (broadcast S10000x64 (Scalar.ofBits .f32 0x00000000#32)) (ix2 r n)
      = layer (fun k => h (ix2 r k)) W b n := by
  rw [maximumf_apply, addf_apply, bias_row_apply, broadcast_apply, shapeCast_self]
  simp only [matmul]
  have hm : FloatOps.matmul dot_S10000x128_S128x64_S10000x64_1_0_0_1_n_n none
      (truncf .bf16 h bitsLt_bf16_f32) W (constant S10000x64 .f32 0x00000000#32) (ix2 r n)
      = ∑ k : Fin 128, h (ix2 r k) * W (ix2 k n) :=
    Idealize.ShloMosaic.PlainMatmul.matmul_plain_zero_apply 10000 128 64 none (truncf .bf16 h bitsLt_bf16_f32) W r n
  rw [hm]
  show max (_ + b (ix1 n)) (Ideal.ofBits .f32 0x00000000#32) = _
  rw [Ideal.ofBits_zero_f32]
  rfl

/-- What the node kernel's body leaves in its output block, entry `(r, j)`: the perceptron of the flow block's row `r`. -/
theorem out1_5_apply (x0 : Vec Ideal S10000x128 .f32) (x1 : Vec Ideal S128x128 .bf16) (x2 : Vec Ideal S128 .f32)
    (x3 : Vec Ideal S128x64 .bf16) (x4 : Vec Ideal S64 .f32) (r : Fin 10000) (j : Fin 64) :
    out1_5 (F := Ideal) x0 x1 x2 x3 x4 (ix2 r j) = mlp (fun q => x0 (ix2 r q)) x1 x2 x3 x4 j := by
  unfold out1_5
  rw [View.canon_unit_zero off2_zero]
  simp only [View.ld_unit_zero (S := S10000x128) off2_zero, View.ld_unit_zero (S := S128x128) off2_zero,
    View.ld_unit_zero (S := S128) off1_zero, View.ld_unit_zero (S := S128x64) off2_zero,
    View.ld_unit_zero (S := S64) off1_zero]
  refine (output_apply _ x3 x4 r j).trans ?_
  exact congrArg (fun h => layer h x3 x4 j) (funext fun k => hidden_apply x0 x1 x2 r k)

end Cert.KernelIdeal.NodeBody

end
-- ==== Proof.NodeArray.lean ====
import proofs.«403569_j42047729828006_3_alg».proof.Proof.Gen.KernelIdeal.Frame
import proofs.«403569_j42047729828006_3_alg».proof.Proof.Spec
import proofs.«403569_j42047729828006_3_alg».proof.Proof.NodeBody
import Idealize.ShloMosaic.Lib.Pipeline.Value

noncomputable section

namespace Cert.KernelIdeal.NodeArray

open Idealize.ShloMosaic Idealize.ShloMosaic.TcCoe Idealize.ShloMosaic.ValueIdx Idealize.SL.Sem Cert.KernelIdeal Cert.KernelIdeal.Gen Cert.Flow

variable (V : (c : Dev nD) → (b : Ref sig .tc) → Buf (Elt Ideal) ((c : Thread nD τ).loc b))

/-- The block indices of the six windows at grid point `t`: the flow rows and the output rows move with the point,
    `(t, 0)`; the weights and biases are whole arrays, block `0` on every axis. -/
theorem block_indices : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 ∧ t.val < 5 :=
  (by decide +kernel : ∀ t : Fin grid1.N, _)

/-- Entry `y` of the body's output block is the perceptron of row `y 0` of its flow block, at column `y 1`. -/
theorem body_at (x0 : Vec Ideal S10000x128 .f32) (x1 : Vec Ideal S128x128 .bf16) (x2 : Vec Ideal S128 .f32)
    (x3 : Vec Ideal S128x64 .bf16) (x4 : Vec Ideal S64 .f32) (y : S10000x64.Idx) :
    out1_5 (F := Ideal) x0 x1 x2 x3 x4 y = mlp (fun q => x0 (ix2 (y 0) q)) x1 x2 x3 x4 (y 1) :=
  (congrArg (out1_5 (F := Ideal) x0 x1 x2 x3 x4) (eq_ix2 y)).trans (NodeBody.out1_5_apply x0 x1 x2 x3 x4 (y 0) (y 1))

/-- The flow window's block at point `t` is rows `10000 · t … 10000 · t + 9999` of the flow array. -/
theorem flow_block (c : Dev nD) (t : Fin cfg1.N) (r : Fin 10000) (q : Fin 128) (n : Fin 50000)
    (hn : n.val = 10000 * t.val + r.val) :
    (iblk1 V c 0 t : Vec Ideal S10000x128 .f32) (ix2 r q) = (V c main_v16 : S50000x128.Idx → EReal) (ix2 n q) := by
  obtain ⟨e0, e1, -⟩ := block_indices t
  unfold iblk1
  rw [View.read_apply]
  show V c main_v16 _ = V c main_v16 _
  congr 1
  funext a
  apply Fin.ext
  match a with
  | ⟨0, _⟩ => show win1_0.index t (0 : Fin 2) * 10000 + 1 * r.val = n.val; rw [e0, hn]; omega
  | ⟨1, _⟩ => show win1_0.index t (1 : Fin 2) * 128 + 1 * q.val = q.val; rw [e1]; omega

/-- The first weight window's block at any point is the whole array. -/
theorem w1_block (c : Dev nD) (t : Fin cfg1.N) : (iblk1 V c 1 t : Vec Ideal S128x128 .bf16) = V c main_v9 := by
  obtain ⟨-, -, -, -, e0, e1, -⟩ := block_indices t
  funext y
  unfold iblk1
  rw [View.read_apply]
  show V c main_v9 _ = V c main_v9 y
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The first bias window's block at any point is the whole array. -/
theorem b1_block (c : Dev nD) (t : Fin cfg1.N) : (iblk1 V c 2 t : Vec Ideal S128 .f32) = V c main_arg12 := by
  obtain ⟨-, -, -, -, -, -, e0, -⟩ := block_indices t
  funext y
  unfold iblk1
  rw [View.read_apply]
  show V c main_arg12 _ = V c main_arg12 y
  congr 1
  funext a
  apply Fin.ext
  match a with
  | ⟨0, _⟩ => show win1_2.index t (0 : Fin 1) * 128 + 1 * (y 0).val = (y 0).val; rw [e0]; omega

/-- The second weight window's block at any point is the whole array. -/
theorem w2_block (c : Dev nD) (t : Fin cfg1.N) : (iblk1 V c 3 t : Vec Ideal S128x64 .bf16) = V c main_v10 := by
  obtain ⟨-, -, -, -, -, -, -, e0, e1, -⟩ := block_indices t
  funext y
  unfold iblk1
  rw [View.read_apply]
  show V c main_v10 _ = V c main_v10 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- The second bias window's block at any point is the whole array. -/
theorem b2_block (c : Dev nD) (t : Fin cfg1.N) : (iblk1 V c 4 t : Vec Ideal S64 .f32) = V c main_arg14 := by
  obtain ⟨-, -, -, -, -, -, -, -, -, e0, -⟩ := block_indices t
  funext y
  unfold iblk1
  rw [View.read_apply]
  show V c main_arg14 _ = V c main_arg14 y
  congr 1
  funext a
  apply Fin.ext
  match a with
  | ⟨0, _⟩ => show win1_4.index t (0 : Fin 1) * 64 + 1 * (y 0).val = (y 0).val; rw [e0]; omega

/-- Where entry `y` of the output block at point `t` sits in the output array: row `10000 · t + y 0`, column `y 1`. -/
theorem out_emb (t : Fin cfg1.N) (y : S10000x64.Idx) (i : S50000x64.Idx)
    (hi : i = ((cfg1.win 5).blk t).view.emb y) :
    (i 0).val = 10000 * t.val + (y 0).val ∧ (i 1).val = (y 1).val := by
  obtain ⟨-, -, e0, e1, -⟩ := block_indices t
  subst hi
  constructor
  · show win1_5.index t (0 : Fin 2) * 10000 + 1 * (y 0).val = _; rw [e0]; omega
  · show win1_5.index t (1 : Fin 2) * 64 + 1 * (y 1).val = _; rw [e1]; omega

/-- What point `t` writes back is block `t` of the node perceptron of every flow row. -/
theorem flushed_eq (c : Dev nD) (t : Fin cfg1.N) :
    (dat1 (F := Ideal) V c).flushed 5 t = ((cfg1.win 5).blk t).view.read (Elt Ideal)
      (nodes (V c main_v16) (V c main_v9) (V c main_arg12) (V c main_v10) (V c main_arg14)) := by
  show (cfg1.win 5).cut (grid1.coords t) ((dat1 V c).after 5 t) = _
  rw [after1_5, w1_block, b1_block, w2_block, b2_block]
  funext j
  show out1_5 (iblk1 V c 0 t) (V c main_v9) (V c main_arg12) (V c main_v10) (V c main_arg14) ((cfg1.win 5).xinj (grid1.coords t) j)
    = nodes (V c main_v16) (V c main_v9) (V c main_arg12) (V c main_v10) (V c main_arg14) (((cfg1.win 5).blk t).view.emb j)
  refine (body_at _ _ _ _ _ _).trans ?_
  obtain ⟨h0, h1⟩ := out_emb t ((cfg1.win 5).xinj (grid1.coords t) j) _ rfl
  unfold nodes
  show mlp _ _ _ _ _ _ = mlp _ _ _ _ _ _
  congr 1
  · funext q
    exact flow_block V c t _ q _ h0
  · exact Fin.ext h1.symm

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v17).slice (win1_5.rect t)).set ↔ _
  rw [View.set_slice_whole, Rect.mem_set_unit]
  exact Iff.rfl

/-- Every row of the output array is in some point's block: row `n` in that of point `n / 10000`. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 5 := N_1
  refine ⟨⟨(i 0).val / 10000, by rw [hN]; omega⟩, flush1_5 _, ?_⟩
  rw [mem_blk]
  obtain ⟨-, -, e0, e1, -⟩ := block_indices ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [e1]; omega

/-- The node kernel's output array after its 5 grid points, from whatever the region found in its operands' arrays:
    row `n` is the perceptron of flow row `n`. -/
theorem node_array (c : Dev nD) :
    (dat1 (F := Ideal) V c).arrAt 5 cfg1.N
      = nodes (V c main_v16) (V c main_v9) (V c main_arg12) (V c main_v10) (V c main_arg14) := by
  exact (dat1 (F := Ideal) V c).arrAt_eq_of_cover 5 _ (fun t _ => flushed_eq V c t) covered

end Cert.KernelIdeal.NodeArray

end
-- ==== Proof.EntryValues.lean ====
import proofs.«403569_j42047729828006_3_alg».proof.Proof.Gen.KernelIdeal.Frame
import proofs.«403569_j42047729828006_3_alg».proof.Proof.Spec
import Idealize.ShloMosaic.Lib.Pipeline.Value
import Idealize.ShloMosaic.Lib.StableHlo.Run
import Idealize.ShloMosaic.PureOps.Reduce

noncomputable section

namespace Cert.KernelIdeal.EntryValues

open Idealize.ShloMosaic Idealize.ShloMosaic.TcCoe Idealize.ShloMosaic.ValueIdx Idealize.SL.Sem Cert.KernelIdeal Cert.KernelIdeal.Gen Cert.Flow

variable (m : (ℓ : Loc nD τ sig) → Buf (Elt Ideal) ℓ) (ρ : Dev nD → PrngReg)

/-! What the edge kernel finds in its operands' arrays (the contents `V3` at its entry), as functions of the launch
    memory `m`: the host operations before it slice the identifier rows, gather the node rows and narrow the weights
    (the identity on the extended reals). -/

section Reads

/-- Row `0` of the `2 × E` identifier array, flattened to a vector, read at an edge: the edge's row identifier. -/
theorem rowSlice_apply (x1 : IVec S2x800000 32) (i : S800000.Idx) :
    (shapeCast S800000 (extractStridedSlice S1x800000 ![0, 0] x1 slices_S2x800000_S1x800000_0_0)
      shapeCasts_S1x800000_S800000 : IVec S800000 32) i = rowId x1 (i 0) := by
  refine (shapeCast_apply _ shapeCasts_S1x800000_S800000 i (ix2 (0 : Fin 1) (i 0)) ?_).trans ?_
  · rewrite [Shape.rowMajor_val_two, Shape.rowMajor_val_one]
    show 0 * 800000 + (i 0).val = (i 0).val
    omega
  · exact extractStridedSlice_apply ![0, 0] x1 slices_S2x800000_S1x800000_0_0 _ (ix2 (0 : Fin 2) (i 0)) (fun a => match a with
      | ⟨0, _⟩ => by show (0 : Nat) = 0 + 0; rfl
      | ⟨1, _⟩ => by show (i 0).val = 0 + (i 0).val; omega)

/-- Row `1` of the identifier array, flattened to a vector. -/
def colV (x1 : IVec S2x800000 32) : IVec S800000 32 :=
  shapeCast S800000 (extractStridedSlice S1x800000 ![1, 0] x1 slices_S2x800000_S1x800000_1_0) shapeCasts_S1x800000_S800000

/-- Row `1`, flattened, read at an edge: the edge's column identifier. -/
theorem colV_apply (x1 : IVec S2x800000 32) (i : S800000.Idx) : colV x1 i = colId x1 (i 0) := by
  unfold colV
  refine (shapeCast_apply _ shapeCasts_S1x800000_S800000 i (ix2 (0 : Fin 1) (i 0)) ?_).trans ?_
  · rewrite [Shape.rowMajor_val_two, Shape.rowMajor_val_one]
    show 0 * 800000 + (i 0).val = (i 0).val
    omega
  · exact extractStridedSlice_apply ![1, 0] x1 slices_S2x800000_S1x800000_1_0 _ (ix2 (1 : Fin 2) (i 0)) (fun a => match a with
      | ⟨0, _⟩ => by show (1 : Nat) = 1 + 0; rfl
      | ⟨1, _⟩ => by show (i 0).val = 0 + (i 0).val; omega)

/-- A vector of `E` entries broadcast to an `E × 1` column, read at a row: the vector's entry there. -/
theorem toColumn_apply {α : Type} (y : S800000.Idx → α) (i : S800000x1.Idx) :
    broadcastInDim S800000x1 ![0] bcast_S800000_S800000x1_0 y i = y (ix1 (i 0)) :=
  broadcastInDim_apply _ bcast_S800000_S800000x1_0 y i (ix1 (i 0)) (fun a => match a with
    | ⟨0, _⟩ => by show (i 0).val = if (800000 : Nat) = 1 then 0 else (i 0).val; rw [if_neg (by decide)])

/-- A left fold by `and` from `1` over words that are all `1` is `1`. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

end Reads

section Take

/-- Contents moved to a buffer's own type and back are unchanged. -/
theorem ofBuf_toBuf {T : BufTy} (r : Ref sig .tc) (p q : r.ty = T) (p2 q2 : _) (p3 q3 : _) (v : T.Contents (Elt Ideal)) :
    (StableHlo.TRef.of r p p2 p3).ofBuf ((StableHlo.TRef.of r q q2 q3).toBuf v) = v := by
  subst p
  rfl

theorem toBuf_main_v4 (p : _) (p2 : _) (p3 : _) (v : (⟨S800000x64, .f32⟩ : BufTy).Contents (Elt Ideal)) :
    (StableHlo.TRef.of (T := ⟨S800000x64, .f32⟩) main_v4 p p2 p3).toBuf v = v := rfl

theorem ofBuf_main_v3 (p : _) (p2 : _) (p3 : _) (v : main_v3.ty.Contents (Elt Ideal)) :
    (StableHlo.TRef.of (T := ⟨S800000, .i32⟩) main_v3 p p2 p3).ofBuf v = v := rfl

theorem ofBuf_main_arg0 (p : _) (p2 : _) (p3 : _) (v : main_arg0.ty.Contents (Elt Ideal)) :
    (StableHlo.TRef.of (T := ⟨S50000x64, .f32⟩) main_arg0 p p2 p3).ofBuf v = v := rfl

/-- A select whose mask holds everywhere keeps its first operand. -/
theorem select_of_mask {s : Shape} {α : Type} (c : IVec s 1) (a b : s.Idx → α) (h : ∀ j, c j = 1#1) :
    select c a b = a := by
  funext j
  rw [select_apply, h j, select_one]

/-- A vector of `E` entries broadcast along the rows of an `E × 64` array, read at an entry: the vector's entry at the row. -/
theorem toRows_apply {α : Type} (y : S800000.Idx → α) (j : S800000x64.Idx) :
    broadcastInDim S800000x64 ![0] bcast_S800000_S800000x64_0 y j = y (ix1 (j 0)) :=
  broadcastInDim_apply _ bcast_S800000_S800000x64_0 y j (ix1 (j 0)) (fun a => match a with
    | ⟨0, _⟩ => by show (j 0).val = if (800000 : Nat) = 1 then 0 else (j 0).val; rw [if_neg (by decide)])

/-- The start indices computed from a vector `v` of identifiers — `50000` added to the negative ones, as a column —
    read at a row. -/
theorem normCol_apply (v : IVec S800000 32) (i : S800000x1.Idx) :
    broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v) i
      = normIdx (v (ix1 (i 0))) :=
  toColumn_apply _ i

/-- The range test of a column of start indices, read at a row. -/
theorem rangeTest_apply (s5 : IVec S800000x1 32) (i : S800000x1.Idx) :
    andi (cmpi .sge s5 (broadcastInDim S800000x1 ![] bcast_S_S800000x1 (constantI S_ 32 0#32)))
      (cmpi .sle s5 (broadcastInDim S800000x1 ![0, 1] bcast_S1x1_S800000x1_0_1
        (broadcastInDim S1x1 ![1] bcast_S1_S1x1_1 (constantI S1 32 49999#32)))) i
      = IntOp.andi (IntOp.cmpi .sge (s5 i) 0#32) (IntOp.cmpi .sle (s5 i) 49999#32) := rfl

end Take

set_option maxRecDepth 16384 in
/-- The gathered node rows: under the range hypothesis every row passes the gather's fill mask, so the select keeps the
    gathered row everywhere. -/
theorem V3_v4 (c : Dev nD)
    (hr : ∀ e : Fin 800000, IntOp.andi (IntOp.cmpi .sge (normIdx (colId (m ((c : Thread nD τ).loc main_arg1)) e)) 0#32)
      (IntOp.cmpi .sle (normIdx (colId (m ((c : Thread nD τ).loc main_arg1)) e)) 49999#32) = 1#1) :
    (V3 (F := Ideal) m ρ c main_v4 : S800000x64.Idx → EReal)
      = Host.gather gather_S50000x64_S800000x1_S800000x64_1_0_n_n_0_1_164 (m ((c : Thread nD τ).loc main_arg0))
          (colIdx (m ((c : Thread nD τ).loc main_arg1))) := by
  show StableHlo.after hostOps0_2 (StableHlo.after hostOps0_1 (StableHlo.after hostOps0 (W0 m ρ c))) (Proc.devRef .tc main_v4) = _
  after_results_simp
  simp only [ofBuf_toBuf, toBuf_main_v4, ofBuf_main_v3, ofBuf_main_arg0]
  refine (select_of_mask _ _ _ ?_).trans ?_
  · intro j
    refine (toRows_apply _ j).trans ?_
    refine (Host.reduce_eq_foldl IntOp.andi _ _ reducesTo_S800000x1_S800000_d1 h_S_ _).trans ?_
    refine foldl_andi_ones _ (fun i => ?_) _
    refine (rangeTest_apply _ i).trans ?_
    rw [normCol_apply]
    exact (congrArg (fun t => IntOp.andi (IntOp.cmpi .sge (normIdx t) 0#32) (IntOp.cmpi .sle (normIdx t) 49999#32))
      (colV_apply (m ((c : Thread nD τ).loc main_arg1)) (ix1 (i 0)))).trans (hr (i 0))
  · refine congrArg (Host.gather gather_S50000x64_S800000x1_S800000x64_1_0_n_n_0_1_164 (m ((c : Thread nD τ).loc main_arg0))) ?_
    funext i
    rw [normCol_apply]
    exact congrArg normIdx (colV_apply (m ((c : Thread nD τ).loc main_arg1)) (ix1 (i 0)))
theorem V3_arg2 (c : Dev nD) : (V3 (F := Ideal) m ρ c main_arg2 : S800000x64.Idx → EReal) = m ((c : Thread nD τ).loc main_arg2) := by
  show StableHlo.after hostOps0_2 (StableHlo.after hostOps0_1 (StableHlo.after hostOps0 (W0 m ρ c))) (Proc.devRef .tc main_arg2) = _
  after_results
theorem V3_v11 (c : Dev nD) : (V3 (F := Ideal) m ρ c main_v11 : S800000x1.Idx → BitVec 32) = fun i => rowId (m ((c : Thread nD τ).loc main_arg1)) (i 0) := by
  show StableHlo.after hostOps0_2 (StableHlo.after hostOps0_1 (StableHlo.after hostOps0 (W0 m ρ c))) (Proc.devRef .tc main_v11) = _
  after_results
  funext i
  refine (toColumn_apply _ i).trans ?_
  exact rowSlice_apply (m ((c : Thread nD τ).loc main_arg1)) (ix1 (i 0))
theorem V3_v12 (c : Dev nD) : (V3 (F := Ideal) m ρ c main_v12 : S800000x1.Idx → BitVec 32) = fun i => colId (m ((c : Thread nD τ).loc main_arg1)) (i 0) := by
  show StableHlo.after hostOps0_2 (StableHlo.after hostOps0_1 (StableHlo.after hostOps0 (W0 m ρ c))) (Proc.devRef .tc main_v12) = _
  after_results
  funext i
  refine (toColumn_apply _ i).trans ?_
  exact colV_apply (m ((c : Thread nD τ).loc main_arg1)) (ix1 (i 0))
theorem V3_v5 (c : Dev nD) : (V3 (F := Ideal) m ρ c main_v5 : S128x128.Idx → EReal) = m ((c : Thread nD τ).loc main_arg3) := by
  show StableHlo.after hostOps0_2 (StableHlo.after hostOps0_1 (StableHlo.after hostOps0 (W0 m ρ c))) (Proc.devRef .tc main_v5) = _
  after_results
  funext i
  exact truncf_apply _ _ i
theorem V3_arg4 (c : Dev nD) : (V3 (F := Ideal) m ρ c main_arg4 : S128.Idx → EReal) = m ((c : Thread nD τ).loc main_arg4) := by
  show StableHlo.after hostOps0_2 (StableHlo.after hostOps0_1 (StableHlo.after hostOps0 (W0 m ρ c))) (Proc.devRef .tc main_arg4) = _
  after_results
theorem V3_v6 (c : Dev nD) : (V3 (F := Ideal) m ρ c main_v6 : S128x64.Idx → EReal) = m ((c : Thread nD τ).loc main_arg5) := by
  show StableHlo.after hostOps0_2 (StableHlo.after hostOps0_1 (StableHlo.after hostOps0 (W0 m ρ c))) (Proc.devRef .tc main_v6) = _
  after_results
  funext i
  exact truncf_apply _ _ i
theorem V3_arg6 (c : Dev nD) : (V3 (F := Ideal) m ρ c main_arg6 : S64.Idx → EReal) = m ((c : Thread nD τ).loc main_arg6) := by
  show StableHlo.after hostOps0_2 (StableHlo.after hostOps0_1 (StableHlo.after hostOps0 (W0 m ρ c))) (Proc.devRef .tc main_arg6) = _
  after_results
theorem V3_v7 (c : Dev nD) : (V3 (F := Ideal) m ρ c main_v7 : S128x128.Idx → EReal) = m ((c : Thread nD τ).loc main_arg7) := by
  show StableHlo.after hostOps0_2 (StableHlo.after hostOps0_1 (StableHlo.after hostOps0 (W0 m ρ c))) (Proc.devRef .tc main_v7) = _
  after_results
  funext i
  exact truncf_apply _ _ i
theorem V3_arg8 (c : Dev nD) : (V3 (F := Ideal) m ρ c main_arg8 : S128.Idx → EReal) = m ((c : Thread nD τ).loc main_arg8) := by
  show StableHlo.after hostOps0_2 (StableHlo.after hostOps0_1 (StableHlo.after hostOps0 (W0 m ρ c))) (Proc.devRef .tc main_arg8) = _
  after_results
theorem V3_v8 (c : Dev nD) : (V3 (F := Ideal) m ρ c main_v8 : S128x64.Idx → EReal) = m ((c : Thread nD τ).loc main_arg9) := by
  show StableHlo.after hostOps0_2 (StableHlo.after hostOps0_1 (StableHlo.after hostOps0 (W0 m ρ c))) (Proc.devRef .tc main_v8) = _
  after_results
  funext i
  exact truncf_apply _ _ i
theorem V3_arg10 (c : Dev nD) : (V3 (F := Ideal) m ρ c main_arg10 : S64.Idx → EReal) = m ((c : Thread nD τ).loc main_arg10) := by
  show StableHlo.after hostOps0_2 (StableHlo.after hostOps0_1 (StableHlo.after hostOps0 (W0 m ρ c))) (Proc.devRef .tc main_arg10) = _
  after_results

end Cert.KernelIdeal.EntryValues

end
-- ==== Proof.LibSegmentSum.lean ====
import Idealize.ShloMosaic.PureOps.Ideal
import Idealize.ShloMosaic.Lib.ValueIdx

/-!
# A scatter-add of rows (`jax.ops.segment_sum`) read at one entry

`segment_sum(upd, ids, num_segments = N)` of an `E × C` array prints as the accumulating scatter of the `E` rows of
`upd` into an `N × C` operand, row `e` landing on row `ids e` (read signed, dropped when outside `[0, N)`). Over the
extended reals its entry `(n, c)` is the operand's entry plus the sum of `upd (e, c)` over the rows `e` with `ids e = n`.
-/

noncomputable section

namespace Idealize.ShloMosaic.SegmentSum

open Idealize.ShloMosaic Idealize.ShloMosaic.ValueIdx

/-- The dimension numbers of a scatter of `E` rows of width `C` into an `N × C` operand along axis 0, the row
    identifiers an `E × 1` column. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)

/-- On the operand's row axis the window of update index `j` starts at the identifier of `j`'s row, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's column axis every window starts at `0`. -/
theorem start_one (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from (by decide : (1 : Fin 2) ∉ ([0] : List (Fin 2))))]

/-- The row axis is inserted: its window coordinate is `0`. -/
theorem window_zero (j : (⟨2, ![E, C]⟩ : Shape).Idx) :
    (rowDims N E C wf).window j 0 = 0 := by
  unfold ScatterDims.window
  rw [dif_neg (show ¬ (0 : Fin 2) ∈ (rowDims N E C wf).sKept from (by decide : (0 : Fin 2) ∉ (List.finRange 2).filter (· ∉ ([0] : List (Fin 2)))))]

/-- The column axis carries the update's column coordinate. -/
theorem window_one (j : (⟨2, ![E, C]⟩ : Shape).Idx) :
    (rowDims N E C wf).window j 1 = (j 1).val := by
  unfold ScatterDims.window
  rw [dif_pos (show (1 : Fin 2) ∈ (rowDims N E C wf).sKept from (by decide : (1 : Fin 2) ∈ (List.finRange 2).filter (· ∉ ([0] : List (Fin 2)))))]
  rfl

/-- Update index `j` lands on operand index `i` exactly when the identifier of `j`'s row is `i`'s row and the two have
    the same column (the range conditions hold of themselves, `i` being an index of the operand). -/
theorem resultIdx?_eq_some_iff (j : (⟨2, ![E, C]⟩ : Shape).Idx) (idx : IVec ⟨2, ![E, 1]⟩ w)
    (i : (⟨2, ![N, C]⟩ : Shape).Idx) :
    (rowDims N E C wf).resultIdx? j idx = some i
      ↔ (idx (ix2 (j 0) (0 : Fin 1))).toInt = ((i 0).val : Int) ∧ (j 1).val = (i 1).val := by
  have hi0 := idx2_lt0 i
  have hj1 := idx2_lt1 j
  unfold ScatterDims.resultIdx?
  split_ifs with h
  · rw [Option.some.injEq]
    constructor
    · intro hf
      have h0 := congrArg (fun f => (f 0).val) hf
      have h1 := congrArg (fun f => (f 1).val) hf
      have hh0 := (h 0).1
      simp only [start_zero, window_zero, start_one, window_one] at h0 h1 hh0
      constructor <;> omega
    · rintro ⟨h0, h1⟩
      funext a
      refine Fin.ext ?_
      match a with
      | ⟨0, _⟩ =>
        show ((rowDims N E C wf).start j idx 0 + ((rowDims N E C wf).window j 0 : Int)).toNat = (i 0).val
        rw [start_zero, window_zero, h0]; omega
      | ⟨1, _⟩ =>
        show ((rowDims N E C wf).start j idx 1 + ((rowDims N E C wf).window j 1 : Int)).toNat = (i 1).val
        rw [start_one, window_one, h1]; omega
  · constructor
    · intro hf; exact absurd hf (by simp)
    · rintro ⟨h0, h1⟩
      refine absurd ?_ h
      intro a
      match a with
      | ⟨0, _⟩ =>
        show 0 ≤ (rowDims N E C wf).start j idx 0 + ((rowDims N E C wf).window j 0 : Int)
          ∧ (rowDims N E C wf).start j idx 0 + ((rowDims N E C wf).window j 0 : Int) < (N : Int)
        rw [start_zero, window_zero, h0]; omega
      | ⟨1, _⟩ =>
        show 0 ≤ (rowDims N E C wf).start j idx 1 + ((rowDims N E C wf).window j 1 : Int)
          ∧ (rowDims N E C wf).start j idx 1 + ((rowDims N E C wf).window j 1 : Int) < (C : Int)
        rw [start_one, window_one]; omega

end

/-- The accumulating row scatter over the extended reals at the entry `(n, c)`: the operand's entry plus the sum, over
    the update rows `e` whose identifier is `n`, of `upd (e, c)`. -/
theorem hostScatterAdd_rows {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [resultIdx?_eq_some_iff]
  show (∑ c' : Fin C, if (idx (ix2 e (0 : Fin 1))).toInt = (n.val : Int) ∧ c'.val = c.val then upd (ix2 e c') else 0) = _
  by_cases hr : (idx (ix2 e (0 : Fin 1))).toInt = (n.val : Int)
  · simp only [hr, true_and, if_true, Fin.val_inj]
    rw [Finset.sum_ite_eq' Finset.univ c (fun c' => upd (ix2 e c'))]
    simp
  · simp only [hr, false_and, if_false, Finset.sum_const_zero]

end Idealize.ShloMosaic.SegmentSum

end
-- ==== Proof.MidValues.lean ====
import proofs.«403569_j42047729828006_3_alg».proof.Proof.Gen.KernelIdeal.Frame
import proofs.«403569_j42047729828006_3_alg».proof.Proof.Spec
import proofs.«403569_j42047729828006_3_alg».proof.Proof.LibSegmentSum
import Idealize.ShloMosaic.Lib.Pipeline.Value
import Idealize.ShloMosaic.Lib.StableHlo.Run
import Idealize.ShloMosaic.PureOps.Ideal.Laws

noncomputable section

namespace Cert.KernelIdeal.MidValues

open Idealize.ShloMosaic Idealize.ShloMosaic.TcCoe Idealize.ShloMosaic.ValueIdx Idealize.SL.Sem Cert.KernelIdeal Cert.KernelIdeal.Gen Cert.Flow

variable (m : (ℓ : Loc nD τ sig) → Buf (Elt Ideal) ℓ) (ρ : Dev nD → PrngReg)

/-! What the node kernel finds in its operands' arrays (the contents `V5` at its entry): the flow array is the row
    scatter-add of the edge kernel's output array by the row identifiers; the weights and biases are the launch
    memory's (the narrowing is the identity on the extended reals; no region and no later host operation writes them). -/

/-- No operation of the line writes the buffer. -/
local macro "not_written" : tactic =>
  `(tactic| (refine StableHlo.after_of_forall_not_mem _ _ (List.forall_iff_forall_mem.mp ?_)
             simp only [hostOps0, hostOps0_1, hostOps0_2, hostOps1, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- The first row of the identifier array, sliced and flattened, read at an edge. -/
theorem rowIds_read (x1 : S2x800000.Idx → BitVec 32) (i : S800000.Idx) :
    shapeCast S800000 (extractStridedSlice S1x800000 ![0, 0] x1 slices_S2x800000_S1x800000_0_0) shapeCasts_S1x800000_S800000 i
      = rowId x1 (i 0) := by
  refine (shapeCast_apply _ shapeCasts_S1x800000_S800000 i (ix2 (0 : Fin 1) (i 0)) (by
    rw [Shape.rowMajor_val_two, Shape.rowMajor_val_one]; show 0 * 800000 + (i 0).val = (i 0).val; omega)).trans ?_
  exact extractStridedSlice_apply ![0, 0] x1 slices_S2x800000_S1x800000_0_0 (ix2 (0 : Fin 1) (i 0)) (ix2 (0 : Fin 2) (i 0))
    (fun a => match a with
      | ⟨0, _⟩ => rfl
      | ⟨1, _⟩ => by show (i 0).val = 0 + (i 0).val; omega)

/-- The column of row identifiers read at an edge. -/
theorem rowCol_read (r : Fin 800000 → BitVec 32) (e : Fin 800000) :
    broadcastInDim S800000x1 ![0] bcast_S800000_S800000x1_0 (fun i : S800000.Idx => r (i 0)) (ix2 e (0 : Fin 1)) = r e :=
  broadcastInDim_apply _ bcast_S800000_S800000x1_0 (fun i : S800000.Idx => r (i 0)) (ix2 e (0 : Fin 1)) (ix1 e) (fun a => match a with
    | ⟨0, _⟩ => by show e.val = if (800000 : Nat) = 1 then 0 else e.val; rw [if_neg (by decide)])

/-- The zero operand read at an entry. -/
theorem zeros_read (n : Fin 50000) (j : Fin 128) :
    broadcastInDim S50000x128 ![] bcast_S_S50000x128 (constant (F := Ideal) S_ FTy.f32 0x00000000#32) (ix2 n j) = 0 := by
  rw [broadcastInDim_apply _ bcast_S_S50000x128 _ (ix2 n j) ix0 (fun a => a.elim0), constant_apply]
  exact Ideal.ofBits_zero_f32

/-- The accumulating row scatter of the program, read at an entry: the operand's entry plus the sum of the update rows
    whose identifier is the entry's row. -/
theorem scatter_rows_read (x : S50000x128.Idx → EReal) (idx : IVec S800000x1 32) (M : S800000x128.Idx → EReal)
    (n : Fin 50000) (j : Fin 128) :
    Host.scatterAdd (F := Ideal) (φ := FTy.f32) scatter_S50000x128_S800000x1_S800000x128_1_0_0_1 x idx M (ix2 n j)
      = x (ix2 n j) + ∑ e : Fin 800000, if (idx (ix2 e (0 : Fin 1))).toInt = (n.val : Int) then M (ix2 e j) else 0 := by
  unfold Host.scatterAdd
  rw [Ideal.hostScatterAdd_def]
  exact SegmentSum.hostScatterAdd_rows scatter_S50000x128_S800000x1_S800000x128_1_0_0_1_wf x idx M n j

/-- The flow array: the zero operand plus, at each entry, the sum of the edge kernel's output rows whose row identifier
    is the entry's node. -/
theorem V5_v16 (c : Dev nD) :
    (V5 (F := Ideal) m ρ c main_v16 : S50000x128.Idx → EReal)
      = flow (rowId (m ((c : Thread nD τ).loc main_arg1))) ((dat0 (F := Ideal) (V3 m ρ) c).arrAt 12 cfg0.N) := by
  have e1 : (W4 (F := Ideal) m ρ c (Proc.devRef .tc main_v1) : S800000.Idx → BitVec 32)
      = (fun i : S800000.Idx => rowId (m ((c : Thread nD τ).loc main_arg1)) (i 0)) := by
    have a : W4 (F := Ideal) m ρ c (Proc.devRef .tc main_v1) = W1 m ρ c (Proc.devRef .tc main_v1) :=
      calc W4 (F := Ideal) m ρ c (Proc.devRef .tc main_v1)
        _ = W3 m ρ c (Proc.devRef .tc main_v1) := W4_of_ne m ρ c main_v1 (by decide)
        _ = W2 m ρ c (Proc.devRef .tc main_v1) := by not_written
        _ = W1 m ρ c (Proc.devRef .tc main_v1) := by not_written
    rw [a]
    show StableHlo.after hostOps0 (W0 (F := Ideal) m ρ c) (Proc.devRef .tc main_v1) = _
    after_results
    funext i
    exact rowIds_read (m ((c : Thread nD τ).loc main_arg1)) i
  have e13 : W4 (F := Ideal) m ρ c (Proc.devRef .tc main_v13) = (dat0 (F := Ideal) (V3 m ρ) c).arrAt 12 cfg0.N :=
    W4_arr m ρ c 12
  show StableHlo.after hostOps1 (W4 (F := Ideal) m ρ c) (Proc.devRef .tc main_v16) = _
  after_results
  rw [e1, e13]
  generalize (dat0 (F := Ideal) (V3 m ρ) c).arrAt 12 cfg0.N = M
  funext i
  obtain ⟨n, j, rfl⟩ : ∃ (n : Fin 50000) (j : Fin 128), i = ix2 n j := ⟨i 0, i 1, eq_ix2 i⟩
  rw [scatter_rows_read, zeros_read]
  simp only [rowCol_read (rowId (m ((c : Thread nD τ).loc main_arg1)))]
  unfold flow segSum
  rfl

theorem V5_v9 (c : Dev nD) : (V5 (F := Ideal) m ρ c main_v9 : S128x128.Idx → EReal) = m ((c : Thread nD τ).loc main_arg11) := by
  have e3 : (W3 (F := Ideal) m ρ c (Proc.devRef .tc main_v9) : S128x128.Idx → EReal)
      = m ((c : Thread nD τ).loc main_arg11) := by
    show StableHlo.after hostOps0_2 (W2 (F := Ideal) m ρ c) (Proc.devRef .tc main_v9) = _
    after_results
    rfl
  calc W5 (F := Ideal) m ρ c (Proc.devRef .tc main_v9)
    _ = W4 m ρ c (Proc.devRef .tc main_v9) := by not_written
    _ = W3 m ρ c (Proc.devRef .tc main_v9) := W4_of_ne m ρ c main_v9 (by decide)
    _ = m ((c : Thread nD τ).loc main_arg11) := e3
theorem V5_arg12 (c : Dev nD) : (V5 (F := Ideal) m ρ c main_arg12 : S128.Idx → EReal) = m ((c : Thread nD τ).loc main_arg12) :=
  calc W5 (F := Ideal) m ρ c (Proc.devRef .tc main_arg12)
    _ = W4 m ρ c (Proc.devRef .tc main_arg12) := by not_written
    _ = W3 m ρ c (Proc.devRef .tc main_arg12) := W4_of_ne m ρ c main_arg12 (by decide)
    _ = W2 m ρ c (Proc.devRef .tc main_arg12) := by not_written
    _ = W1 m ρ c (Proc.devRef .tc main_arg12) := by not_written
    _ = W0 m ρ c (Proc.devRef .tc main_arg12) := by not_written
    _ = m ((c : Thread nD τ).loc main_arg12) := rfl
theorem V5_v10 (c : Dev nD) : (V5 (F := Ideal) m ρ c main_v10 : S128x64.Idx → EReal) = m ((c : Thread nD τ).loc main_arg13) := by
  have e3 : (W3 (F := Ideal) m ρ c (Proc.devRef .tc main_v10) : S128x64.Idx → EReal)
      = m ((c : Thread nD τ).loc main_arg13) := by
    show StableHlo.after hostOps0_2 (W2 (F := Ideal) m ρ c) (Proc.devRef .tc main_v10) = _
    after_results
    rfl
  calc W5 (F := Ideal) m ρ c (Proc.devRef .tc main_v10)
    _ = W4 m ρ c (Proc.devRef .tc main_v10) := by not_written
    _ = W3 m ρ c (Proc.devRef .tc main_v10) := W4_of_ne m ρ c main_v10 (by decide)
    _ = m ((c : Thread nD τ).loc main_arg13) := e3
theorem V5_arg14 (c : Dev nD) : (V5 (F := Ideal) m ρ c main_arg14 : S64.Idx → EReal) = m ((c : Thread nD τ).loc main_arg14) :=
  calc W5 (F := Ideal) m ρ c (Proc.devRef .tc main_arg14)
    _ = W4 m ρ c (Proc.devRef .tc main_arg14) := by not_written
    _ = W3 m ρ c (Proc.devRef .tc main_arg14) := W4_of_ne m ρ c main_arg14 (by decide)
    _ = W2 m ρ c (Proc.devRef .tc main_arg14) := by not_written
    _ = W1 m ρ c (Proc.devRef .tc main_arg14) := by not_written
    _ = W0 m ρ c (Proc.devRef .tc main_arg14) := by not_written
    _ = m ((c : Thread nD τ).loc main_arg14) := rfl

end Cert.KernelIdeal.MidValues

end
-- ==== Proof.KernelValue.lean ====
import proofs.«403569_j42047729828006_3_alg».proof.Proof.KernelRun
import proofs.«403569_j42047729828006_3_alg».proof.Proof.EdgeArray
import proofs.«403569_j42047729828006_3_alg».proof.Proof.NodeArray
import proofs.«403569_j42047729828006_3_alg».proof.Proof.EntryValues
import proofs.«403569_j42047729828006_3_alg».proof.Proof.MidValues
import proofs.«403569_j42047729828006_3_alg».proof.Proof.Spec

/-!
The idealized kernel's result as the specification's function of the launch memory: the last region's output array is
the node perceptron of the flow array it found; that array is the row scatter-add of the first region's output array;
and that one is the message rows of what the host operations before it computed — the gathered node rows, the
attributes, the identifier columns and the weights.
-/

noncomputable section

namespace Cert.KernelIdeal.KernelValue

open Idealize.ShloMosaic Idealize.ShloMosaic.TcCoe Idealize.ShloMosaic.ValueIdx Idealize.SL.Sem Cert.KernelIdeal Cert.KernelIdeal.Gen Cert.Flow

variable (m : (ℓ : Loc nD τ sig) → Buf (Elt Ideal) ℓ) (ρ : Dev nD → PrngReg)

/-- The result array at the last boundary is the specification's result of the launch memory, when every normalised
    column identifier is in range. -/
theorem result_value (c : Dev nD)
    (hr : ∀ e : Fin 800000, IntOp.andi (IntOp.cmpi .sge (normIdx (colId (m ((c : Thread nD τ).loc main_arg1)) e)) 0#32)
      (IntOp.cmpi .sle (normIdx (colId (m ((c : Thread nD τ).loc main_arg1)) e)) 49999#32) = 1#1) :
    (W6 (F := Ideal) m ρ c (Proc.devRef .tc main_v17) : S50000x64.Idx → EReal)
      = result (Host.gather gather_S50000x64_S800000x1_S800000x64_1_0_n_n_0_1_164 (m ((c : Thread nD τ).loc main_arg0)) (colIdx (m ((c : Thread nD τ).loc main_arg1))))
          (m ((c : Thread nD τ).loc main_arg2)) (rowId (m ((c : Thread nD τ).loc main_arg1))) (colId (m ((c : Thread nD τ).loc main_arg1)))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14)) := by
  have h1 : W6 (F := Ideal) m ρ c (Proc.devRef .tc main_v17) = (dat1 (V5 m ρ) c).arrAt 5 cfg1.N := W6_arr m ρ c 5
  rw [h1, NodeArray.node_array, MidValues.V5_v16, MidValues.V5_v9, MidValues.V5_arg12, MidValues.V5_v10, MidValues.V5_arg14,
    EdgeArray.edge_array, EntryValues.V3_v4 m ρ c hr, EntryValues.V3_arg2, EntryValues.V3_v11, EntryValues.V3_v12,
    EntryValues.V3_v5, EntryValues.V3_arg4, EntryValues.V3_v6, EntryValues.V3_arg6, EntryValues.V3_v7, EntryValues.V3_arg8,
    EntryValues.V3_v8, EntryValues.V3_arg10]
  rfl

end Cert.KernelIdeal.KernelValue

end
-- ==== Proof.RefValue.lean ====
import proofs.«403569_j42047729828006_3_alg».proof.Proof.Gen.ReferenceIdeal.Read
import proofs.«403569_j42047729828006_3_alg».proof.Proof.Spec
import proofs.«403569_j42047729828006_3_alg».proof.Proof.LibSegmentSum
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem Cert.ReferenceIdeal Cert.ReferenceIdeal.Gen Cert.Flow
open Cert.ReferenceIdeal.Read

/-! ## The identifier columns -/

/-- The first reshaped slice is the row identifiers. -/
theorem v1_apply (x1 : (⟨S2x800000, .i32⟩ : BufTy).Contents (Elt Ideal)) (i : S800000.Idx) :
    val_main_v1 (F := Ideal) x1 i = rowId x1 (i 0) := by
  rw [val_main_v1_apply, val_main_v0_apply]
  unfold rowId
  congr 1
  funext a
  match a with
  | ⟨0, _⟩ => exact Fin.ext rfl
  | ⟨1, _⟩ => exact Fin.ext (Nat.mod_eq_of_lt (i 0).isLt)

/-- The second reshaped slice is the column identifiers. -/
theorem v3_apply (x1 : (⟨S2x800000, .i32⟩ : BufTy).Contents (Elt Ideal)) (i : S800000.Idx) :
    val_main_v3 (F := Ideal) x1 i = colId x1 (i 0) := by
  rw [val_main_v3_apply, val_main_v2_apply]
  unfold colId
  congr 1
  funext a
  match a with
  | ⟨0, _⟩ => exact Fin.ext rfl
  | ⟨1, _⟩ => exact Fin.ext (Nat.mod_eq_of_lt (i 0).isLt)

/-- The gather's start indices are the normalised column identifiers. -/
theorem v9_apply (x1 : (⟨S2x800000, .i32⟩ : BufTy).Contents (Elt Ideal)) (i : S800000x1.Idx) :
    val_main_v9 (F := Ideal) x1 i = colIdx x1 i := by
  rw [val_main_v9_apply, val_main_v8_apply, val_main_v5_apply, val_main_v7_apply, val_main_v4_apply,
    val_main_v6_apply, val_main_c_apply, val_main_c_0_apply, v3_apply]
  rfl

theorem v9_eq (x1 : (⟨S2x800000, .i32⟩ : BufTy).Contents (Elt Ideal)) :
    val_main_v9 (F := Ideal) x1 = colIdx x1 := funext (v9_apply x1)

/-- The gathered node rows. -/
theorem v10_eq (x0 : (⟨S50000x64, .f32⟩ : BufTy).Contents (Elt Ideal)) (x1 : (⟨S2x800000, .i32⟩ : BufTy).Contents (Elt Ideal)) :
    val_main_v10 (F := Ideal) x0 x1
      = Host.gather gather_S50000x64_S800000x1_S800000x64_1_0_n_n_0_1_164 x0 (colIdx x1) := by
  unfold val_main_v10
  rw [v9_eq]

/-! ## A concatenation of two 64-wide arrays along the columns -/

/-- Row `e` of `[a | b]` is the two rows side by side. -/
theorem concat64_apply {R : Nat} (a b : (⟨2, ![R, 64]⟩ : Shape).Idx → EReal)
    (h : Shape.Concatenates [(⟨2, ![R, 64]⟩ : Shape), (⟨2, ![R, 64]⟩ : Shape)] (⟨2, ![R, 128]⟩ : Shape) 1)
    (e : Fin R) (k : Fin 128) :
    concatenate (⟨2, ![R, 128]⟩ : Shape) 1 [⟨(⟨2, ![R, 64]⟩ : Shape), a⟩, ⟨(⟨2, ![R, 64]⟩ : Shape), b⟩] h (ix2 e k)
      = join (fun q => a (ix2 e q)) (fun q => b (ix2 e q)) k := by
  unfold join
  by_cases hk : k.val < 64
  · rw [dif_pos hk]
    exact concatenate_pair_apply_left (1 : Fin 2) a b h (ix2 e k) rfl (ix2 e ⟨k.val, hk⟩)
      (fun c => match c with
        | ⟨0, _⟩ => rfl
        | ⟨1, _⟩ => rfl)
  · rw [dif_neg hk]
    exact concatenate_pair_apply_right (1 : Fin 2) a b h (ix2 e k) rfl rfl
      (ix2 e ⟨k.val - 64, by have := k.isLt; omega⟩)
      (fun c hc => match c, hc with
        | ⟨0, _⟩, _ => rfl
        | ⟨1, _⟩, hc => absurd rfl hc)
      (by show (k.val - 64) + 64 = k.val; omega)

/-- Edge `e`'s input row: the gathered node row beside the attribute row. -/
theorem v11_apply (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (e : Fin 800000) (k : Fin 128) :
    val_main_v11 (F := Ideal) x0 x1 x2 (ix2 e k)
      = join (fun q => Host.gather gather_S50000x64_S800000x1_S800000x64_1_0_n_n_0_1_164 x0 (colIdx x1) (ix2 e q))
          (fun q => x2 (ix2 e q)) k := by
  unfold val_main_v11
  rw [v10_eq]
  exact concat64_apply _ _ _ e k

/-! ## The dense layers -/

/-- The first layer of the `out` perceptron on edge `e`'s input row. -/
theorem v22_row (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (e : Fin 800000) (n : Fin 128) :
    val_main_v22 (F := Ideal) x0 x1 x2 x3 x4 (ix2 e n)
      = layer (fun k => val_main_v11 (F := Ideal) x0 x1 x2 (ix2 e k)) x3 x4 n := by
  rw [val_main_v22_apply, val_main_v21_apply, val_main_v18_apply, val_main_v20_apply, val_main_v19_apply,
    val_main_call0_v0_apply, val_main_call0_cst_apply]
  have hl : ∀ k : Fin 128, lidx_main_v18 (ix2 e n) k = ix2 e k := fun k =>
    funext fun a => Fin.ext (by match a with | ⟨0, _⟩ => rfl | ⟨1, _⟩ => rfl)
  have hr : ∀ k : Fin 128, ridx_main_v18 (ix2 e n) k = ix2 k n := fun k =>
    funext fun a => Fin.ext (by match a with | ⟨0, _⟩ => rfl | ⟨1, _⟩ => rfl)
  have hb : idx_main_v19 (idx_main_v20 (ix2 e n)) = ix1 n :=
    funext fun a => Fin.ext (by match a with | ⟨0, _⟩ => rfl)
  rw [hb, Finset.sum_congr rfl (fun k _ => by rw [hl k, hr k])]
  simp only [Ideal.maximumf_def, Ideal.addf_def, Ideal.ofBits_def, Ideal.ofBits_zero_f32]
  rfl

/-- The second layer of the `out` perceptron. -/
theorem v27_row (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (e : Fin 800000) (n : Fin 64) :
    val_main_v27 (F := Ideal) x0 x1 x2 x3 x4 x5 x6 (ix2 e n)
      = layer (fun k => val_main_v22 (F := Ideal) x0 x1 x2 x3 x4 (ix2 e k)) x5 x6 n := by
  rw [val_main_v27_apply, val_main_v26_apply, val_main_v23_apply, val_main_v25_apply, val_main_v24_apply,
    val_main_call1_v0_apply, val_main_call1_cst_apply]
  have hl : ∀ k : Fin 128, lidx_main_v23 (ix2 e n) k = ix2 e k := fun k =>
    funext fun a => Fin.ext (by match a with | ⟨0, _⟩ => rfl | ⟨1, _⟩ => rfl)
  have hr : ∀ k : Fin 128, ridx_main_v23 (ix2 e n) k = ix2 k n := fun k =>
    funext fun a => Fin.ext (by match a with | ⟨0, _⟩ => rfl | ⟨1, _⟩ => rfl)
  have hb : idx_main_v24 (idx_main_v25 (ix2 e n)) = ix1 n :=
    funext fun a => Fin.ext (by match a with | ⟨0, _⟩ => rfl)
  rw [hb, Finset.sum_congr rfl (fun k _ => by rw [hl k, hr k])]
  simp only [Ideal.maximumf_def, Ideal.addf_def, Ideal.ofBits_def, Ideal.ofBits_zero_f32]
  rfl

/-- The first layer of the `in` perceptron on edge `e`'s input row. -/
theorem v37_row (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x7 : (⟨S128x128, .f32⟩ : BufTy).Contents (Elt Ideal)) (x8 : (⟨S128, .f32⟩ : BufTy).Contents (Elt Ideal)) (e : Fin 800000) (n : Fin 128) :
    val_main_v37 (F := Ideal) x0 x1 x2 x7 x8 (ix2 e n)
      = layer (fun k => val_main_v11 (F := Ideal) x0 x1 x2 (ix2 e k)) x7 x8 n := by
  rw [val_main_v37_apply, val_main_v36_apply, val_main_v33_apply, val_main_v35_apply, val_main_v34_apply,
    val_main_call2_v0_apply, val_main_call2_cst_apply]
  have hl : ∀ k : Fin 128, lidx_main_v33 (ix2 e n) k = ix2 e k := fun k =>
    funext fun a => Fin.ext (by match a with | ⟨0, _⟩ => rfl | ⟨1, _⟩ => rfl)
  have hr : ∀ k : Fin 128, ridx_main_v33 (ix2 e n) k = ix2 k n := fun k =>
    funext fun a => Fin.ext (by match a with | ⟨0, _⟩ => rfl | ⟨1, _⟩ => rfl)
  have hb : idx_main_v34 (idx_main_v35 (ix2 e n)) = ix1 n :=
    funext fun a => Fin.ext (by match a with | ⟨0, _⟩ => rfl)
  rw [hb, Finset.sum_congr rfl (fun k _ => by rw [hl k, hr k])]
  simp only [Ideal.maximumf_def, Ideal.addf_def, Ideal.ofBits_def, Ideal.ofBits_zero_f32]
  rfl

/-- The second layer of the `in` perceptron. -/
theorem v42_row (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (e : Fin 800000) (n : Fin 64) :
    val_main_v42 (F := Ideal) x0 x1 x2 x7 x8 x9 x10 (ix2 e n)
      = layer (fun k => val_main_v37 (F := Ideal) x0 x1 x2 x7 x8 (ix2 e k)) x9 x10 n := by
  rw [val_main_v42_apply, val_main_v41_apply, val_main_v38_apply, val_main_v40_apply, val_main_v39_apply,
    val_main_call3_v0_apply, val_main_call3_cst_apply]
  have hl : ∀ k : Fin 128, lidx_main_v38 (ix2 e n) k = ix2 e k := fun k =>
    funext fun a => Fin.ext (by match a with | ⟨0, _⟩ => rfl | ⟨1, _⟩ => rfl)
  have hr : ∀ k : Fin 128, ridx_main_v38 (ix2 e n) k = ix2 k n := fun k =>
    funext fun a => Fin.ext (by match a with | ⟨0, _⟩ => rfl | ⟨1, _⟩ => rfl)
  have hb : idx_main_v39 (idx_main_v40 (ix2 e n)) = ix1 n :=
    funext fun a => Fin.ext (by match a with | ⟨0, _⟩ => rfl)
  rw [hb, Finset.sum_congr rfl (fun k _ => by rw [hl k, hr k])]
  simp only [Ideal.maximumf_def, Ideal.addf_def, Ideal.ofBits_def, Ideal.ofBits_zero_f32]
  rfl

/-- The first layer of the node perceptron on node `e`'s flow row. -/
theorem v53_row (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x128, .f32⟩ : BufTy).Contents (Elt Ideal)) (x12 : (⟨S128, .f32⟩ : BufTy).Contents (Elt Ideal)) (e : Fin 50000) (n : Fin 128) :
    val_main_v53 (F := Ideal) x0 x1 x2 x3 x4 x5 x6 x7 x8 x9 x10 x11 x12 (ix2 e n)
      = layer (fun k => val_main_v48 (F := Ideal) x0 x1 x2 x3 x4 x5 x6 x7 x8 x9 x10 (ix2 e k)) x11 x12 n := by
  rw [val_main_v53_apply, val_main_v52_apply, val_main_v49_apply, val_main_v51_apply, val_main_v50_apply,
    val_main_call4_v0_apply, val_main_call4_cst_apply]
  have hl : ∀ k : Fin 128, lidx_main_v49 (ix2 e n) k = ix2 e k := fun k =>
    funext fun a => Fin.ext (by match a with | ⟨0, _⟩ => rfl | ⟨1, _⟩ => rfl)
  have hr : ∀ k : Fin 128, ridx_main_v49 (ix2 e n) k = ix2 k n := fun k =>
    funext fun a => Fin.ext (by match a with | ⟨0, _⟩ => rfl | ⟨1, _⟩ => rfl)
  have hb : idx_main_v50 (idx_main_v51 (ix2 e n)) = ix1 n :=
    funext fun a => Fin.ext (by match a with | ⟨0, _⟩ => rfl)
  rw [hb, Finset.sum_congr rfl (fun k _ => by rw [hl k, hr k])]
  simp only [Ideal.maximumf_def, Ideal.addf_def, Ideal.ofBits_def, Ideal.ofBits_zero_f32]
  rfl

/-- The second layer of the node perceptron. -/
theorem v58_row (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (e : Fin 50000) (n : Fin 64) :
    val_main_v58 (F := Ideal) x0 x1 x2 x3 x4 x5 x6 x7 x8 x9 x10 x11 x12 x13 x14 (ix2 e n)
      = layer (fun k => val_main_v53 (F := Ideal) x0 x1 x2 x3 x4 x5 x6 x7 x8 x9 x10 x11 x12 (ix2 e k)) x13 x14 n := by
  rw [val_main_v58_apply, val_main_v57_apply, val_main_v54_apply, val_main_v56_apply, val_main_v55_apply,
    val_main_call5_v0_apply, val_main_call5_cst_apply]
  have hl : ∀ k : Fin 128, lidx_main_v54 (ix2 e n) k = ix2 e k := fun k =>
    funext fun a => Fin.ext (by match a with | ⟨0, _⟩ => rfl | ⟨1, _⟩ => rfl)
  have hr : ∀ k : Fin 128, ridx_main_v54 (ix2 e n) k = ix2 k n := fun k =>
    funext fun a => Fin.ext (by match a with | ⟨0, _⟩ => rfl | ⟨1, _⟩ => rfl)
  have hb : idx_main_v55 (idx_main_v56 (ix2 e n)) = ix1 n :=
    funext fun a => Fin.ext (by match a with | ⟨0, _⟩ => rfl)
  rw [hb, Finset.sum_congr rfl (fun k _ => by rw [hl k, hr k])]
  simp only [Ideal.maximumf_def, Ideal.addf_def, Ideal.ofBits_def, Ideal.ofBits_zero_f32]
  rfl

/-! ## The two edge perceptrons, masked -/

/-- The `out` perceptron of edge `e`'s input row. -/
theorem v27_mlp (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (e : Fin 800000) (q : Fin 64) :
    val_main_v27 (F := Ideal) x0 x1 x2 x3 x4 x5 x6 (ix2 e q) = mlp (join (fun q => Host.gather gather_S50000x64_S800000x1_S800000x64_1_0_n_n_0_1_164 x0 (colIdx x1) (ix2 e q)) (fun q => x2 (ix2 e q))) x3 x4 x5 x6 q := by
  rw [v27_row]
  have h22 : (fun k => val_main_v22 (F := Ideal) x0 x1 x2 x3 x4 (ix2 e k))
      = layer (fun k => val_main_v11 (F := Ideal) x0 x1 x2 (ix2 e k)) x3 x4 := funext fun k => v22_row x0 x1 x2 x3 x4 e k
  have h11 : (fun k => val_main_v11 (F := Ideal) x0 x1 x2 (ix2 e k)) = (join (fun q => Host.gather gather_S50000x64_S800000x1_S800000x64_1_0_n_n_0_1_164 x0 (colIdx x1) (ix2 e q)) (fun q => x2 (ix2 e q))) :=
    funext fun k => v11_apply x0 x1 x2 e k
  rw [h22, h11]
  rfl

/-- The `in` perceptron of edge `e`'s input row. -/
theorem v42_mlp (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (e : Fin 800000) (q : Fin 64) :
    val_main_v42 (F := Ideal) x0 x1 x2 x7 x8 x9 x10 (ix2 e q) = mlp (join (fun q => Host.gather gather_S50000x64_S800000x1_S800000x64_1_0_n_n_0_1_164 x0 (colIdx x1) (ix2 e q)) (fun q => x2 (ix2 e q))) x7 x8 x9 x10 q := by
  rw [v42_row]
  have h37 : (fun k => val_main_v37 (F := Ideal) x0 x1 x2 x7 x8 (ix2 e k))
      = layer (fun k => val_main_v11 (F := Ideal) x0 x1 x2 (ix2 e k)) x7 x8 := funext fun k => v37_row x0 x1 x2 x7 x8 e k
  have h11 : (fun k => val_main_v11 (F := Ideal) x0 x1 x2 (ix2 e k)) = (join (fun q => Host.gather gather_S50000x64_S800000x1_S800000x64_1_0_n_n_0_1_164 x0 (colIdx x1) (ix2 e q)) (fun q => x2 (ix2 e q))) :=
    funext fun k => v11_apply x0 x1 x2 e k
  rw [h37, h11]
  rfl

/-- The `out` mask of edge `e`, on every column. -/
theorem v28_apply (x1 : (⟨S2x800000, .i32⟩ : BufTy).Contents (Elt Ideal)) (e : Fin 800000) (q : Fin 64) :
    val_main_v28 (F := Ideal) x1 (ix2 e q) = lt01 (rowId x1 e) (colId x1 e) := by
  rw [val_main_v28_apply, val_main_v14_apply, val_main_v13_apply, val_main_v12_apply, v1_apply, v3_apply]
  rfl

/-- The `in` mask of edge `e`, on every column. -/
theorem v43_apply (x1 : (⟨S2x800000, .i32⟩ : BufTy).Contents (Elt Ideal)) (e : Fin 800000) (q : Fin 64) :
    val_main_v43 (F := Ideal) x1 (ix2 e q) = gt01 (rowId x1 e) (colId x1 e) := by
  rw [val_main_v43_apply, val_main_v17_apply, val_main_v16_apply, val_main_v15_apply, v1_apply, v3_apply]
  rfl

/-- The masked `out` message of edge `e`. -/
theorem v29_apply (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (e : Fin 800000) (q : Fin 64) :
    val_main_v29 (F := Ideal) x0 x1 x2 x3 x4 x5 x6 (ix2 e q)
      = mlp (join (fun q => Host.gather gather_S50000x64_S800000x1_S800000x64_1_0_n_n_0_1_164 x0 (colIdx x1) (ix2 e q)) (fun q => x2 (ix2 e q))) x3 x4 x5 x6 q * lt01 (rowId x1 e) (colId x1 e) := by
  rw [val_main_v29_apply, v27_mlp, v28_apply]
  rfl

/-- The masked `in` message of edge `e`. -/
theorem v44_apply (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (e : Fin 800000) (q : Fin 64) :
    val_main_v44 (F := Ideal) x0 x1 x2 x7 x8 x9 x10 (ix2 e q)
      = mlp (join (fun q => Host.gather gather_S50000x64_S800000x1_S800000x64_1_0_n_n_0_1_164 x0 (colIdx x1) (ix2 e q)) (fun q => x2 (ix2 e q))) x7 x8 x9 x10 q * gt01 (rowId x1 e) (colId x1 e) := by
  rw [val_main_v44_apply, v42_mlp, v43_apply]
  rfl

/-! ## The two segment sums -/

/-- The reference's row scatter at an entry: the operand's entry plus the updates of the rows whose identifier is `n`. -/
theorem scatter_rows (x : (⟨S50000x64, .f32⟩ : BufTy).Contents (Elt Ideal)) (idx : (⟨S800000x1, .i32⟩ : BufTy).Contents (Elt Ideal))
    (upd : (⟨S800000x64, .f32⟩ : BufTy).Contents (Elt Ideal)) (n : Fin 50000) (q : Fin 64) :
    Host.scatterAdd (F := Ideal) (φ := .f32) scatter_S50000x64_S800000x1_S800000x64_1_0_0_1 x idx upd (ix2 n q)
      = x (ix2 n q) + ∑ e : Fin 800000, if (idx (ix2 e (0 : Fin 1))).toInt = (n.val : Int) then upd (ix2 e q) else 0 :=
  Idealize.ShloMosaic.SegmentSum.hostScatterAdd_rows
    Facts₀.scatter_S50000x64_S800000x1_S800000x64_1_0_0_1_wf x idx upd n q

/-- The scatters' identifier column is the row identifiers. -/
theorem v31_apply (x1 : (⟨S2x800000, .i32⟩ : BufTy).Contents (Elt Ideal)) (e : Fin 800000) :
    val_main_v31 (F := Ideal) x1 (ix2 e (0 : Fin 1)) = rowId x1 e := by
  rw [val_main_v31_apply, v1_apply]
  rfl

theorem v46_apply (x1 : (⟨S2x800000, .i32⟩ : BufTy).Contents (Elt Ideal)) (e : Fin 800000) :
    val_main_v46 (F := Ideal) x1 (ix2 e (0 : Fin 1)) = rowId x1 e := by
  rw [val_main_v46_apply, v1_apply]
  rfl

/-- The scatters' operands are zero. -/
theorem v30_apply (i : S50000x64.Idx) : val_main_v30 (F := Ideal) i = 0 := by
  rw [val_main_v30_apply, val_main_cst_apply]
  simp only [Ideal.ofBits_def, Ideal.ofBits_zero_f32]

theorem v45_apply (i : S50000x64.Idx) : val_main_v45 (F := Ideal) i = 0 := by
  rw [val_main_v45_apply, val_main_cst_1_apply]
  simp only [Ideal.ofBits_def, Ideal.ofBits_zero_f32]

/-- Node `n`'s summed `out` messages. -/
theorem v32_apply (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (n : Fin 50000) (q : Fin 64) :
    val_main_v32 (F := Ideal) x0 x1 x2 x3 x4 x5 x6 (ix2 n q)
      = 0 + segSum (rowId x1) (fun e => mlp (join (fun q => Host.gather gather_S50000x64_S800000x1_S800000x64_1_0_n_n_0_1_164 x0 (colIdx x1) (ix2 e q)) (fun q => x2 (ix2 e q))) x3 x4 x5 x6 q * lt01 (rowId x1 e) (colId x1 e)) n.val := by
  unfold val_main_v32
  rw [scatter_rows, v30_apply]
  unfold segSum
  refine congrArg (HAdd.hAdd (0 : EReal)) (Finset.sum_congr rfl (fun e _ => ?_))
  rw [v31_apply, v29_apply]

/-- Node `n`'s summed `in` messages. -/
theorem v47_apply (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (n : Fin 50000) (q : Fin 64) :
    val_main_v47 (F := Ideal) x0 x1 x2 x7 x8 x9 x10 (ix2 n q)
      = 0 + segSum (rowId x1) (fun e => mlp (join (fun q => Host.gather gather_S50000x64_S800000x1_S800000x64_1_0_n_n_0_1_164 x0 (colIdx x1) (ix2 e q)) (fun q => x2 (ix2 e q))) x7 x8 x9 x10 q * gt01 (rowId x1 e) (colId x1 e)) n.val := by
  unfold val_main_v47
  rw [scatter_rows, v45_apply]
  unfold segSum
  refine congrArg (HAdd.hAdd (0 : EReal)) (Finset.sum_congr rfl (fun e _ => ?_))
  rw [v46_apply, v44_apply]

/-! ## The flow rows and the node perceptron -/

/-- A side-by-side row read in its left half. -/
theorem join_lt (a b : Fin 64 → EReal) (k : Fin 128) (hk : k.val < 64) : join a b k = a ⟨k.val, hk⟩ := dif_pos hk

/-- A side-by-side row read in its right half. -/
theorem join_ge (a b : Fin 64 → EReal) (k : Fin 128) (hk : ¬ k.val < 64) :
    join a b k = b ⟨k.val - 64, by have := k.isLt; omega⟩ := dif_neg hk

/-- Edge `e`'s message row, by coordinates. -/
theorem msgs_apply (xcol ea : (⟨2, ![800000, 64]⟩ : Shape).Idx → EReal) (rid cid : Fin 800000 → BitVec 32)
    (Wo1 : (⟨2, ![128, 128]⟩ : Shape).Idx → EReal) (bo1 : (⟨1, ![128]⟩ : Shape).Idx → EReal)
    (Wo2 : (⟨2, ![128, 64]⟩ : Shape).Idx → EReal) (bo2 : (⟨1, ![64]⟩ : Shape).Idx → EReal)
    (Wi1 : (⟨2, ![128, 128]⟩ : Shape).Idx → EReal) (bi1 : (⟨1, ![128]⟩ : Shape).Idx → EReal)
    (Wi2 : (⟨2, ![128, 64]⟩ : Shape).Idx → EReal) (bi2 : (⟨1, ![64]⟩ : Shape).Idx → EReal)
    (e : Fin 800000) (k : Fin 128) :
    msgs xcol ea rid cid Wo1 bo1 Wo2 bo2 Wi1 bi1 Wi2 bi2 (ix2 e k)
      = join (fun q => mlp (join (fun q => xcol (ix2 e q)) (fun q => ea (ix2 e q))) Wi1 bi1 Wi2 bi2 q * gt01 (rid e) (cid e))
          (fun q => mlp (join (fun q => xcol (ix2 e q)) (fun q => ea (ix2 e q))) Wo1 bo1 Wo2 bo2 q * lt01 (rid e) (cid e)) k := rfl

/-- Node `n`'s flow row `[Σ in | Σ out]`. -/
theorem v48_apply (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (n : Fin 50000) (k : Fin 128) :
    val_main_v48 (F := Ideal) x0 x1 x2 x3 x4 x5 x6 x7 x8 x9 x10 (ix2 n k)
      = flow (rowId x1) (msgs (Host.gather gather_S50000x64_S800000x1_S800000x64_1_0_n_n_0_1_164 x0 (colIdx x1)) x2 (rowId x1) (colId x1) x3 x4 x5 x6 x7 x8 x9 x10) (ix2 n k) := by
  unfold val_main_v48
  rw [concat64_apply]
  show _ = 0 + segSum (rowId x1)
    (fun e => msgs (Host.gather gather_S50000x64_S800000x1_S800000x64_1_0_n_n_0_1_164 x0 (colIdx x1)) x2 (rowId x1) (colId x1) x3 x4 x5 x6 x7 x8 x9 x10 (ix2 e k)) n.val
  by_cases hk : k.val < 64
  · rw [join_lt _ _ k hk, v47_apply]
    unfold segSum
    refine congrArg (HAdd.hAdd (0 : EReal)) (Finset.sum_congr rfl (fun e _ => ?_))
    beta_reduce
    rw [msgs_apply, join_lt _ _ k hk]
  · rw [join_ge _ _ k hk, v32_apply]
    unfold segSum
    refine congrArg (HAdd.hAdd (0 : EReal)) (Finset.sum_congr rfl (fun e _ => ?_))
    beta_reduce
    rw [msgs_apply, join_ge _ _ k hk]

/-- The node perceptron of node `n`'s flow row. -/
theorem v58_mlp (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64, .f32⟩ : BufTy).Contents (Elt Ideal)) (n : Fin 50000) (j : Fin 64) :
    val_main_v58 (F := Ideal) x0 x1 x2 x3 x4 x5 x6 x7 x8 x9 x10 x11 x12 x13 x14 (ix2 n j)
      = mlp (fun k => flow (rowId x1) (msgs (Host.gather gather_S50000x64_S800000x1_S800000x64_1_0_n_n_0_1_164 x0 (colIdx x1)) x2 (rowId x1) (colId x1) x3 x4 x5 x6 x7 x8 x9 x10) (ix2 n k))
          x11 x12 x13 x14 j := by
  rw [v58_row]
  have h53 : (fun k => val_main_v53 (F := Ideal) x0 x1 x2 x3 x4 x5 x6 x7 x8 x9 x10 x11 x12 (ix2 n k))
      = layer (fun k => val_main_v48 (F := Ideal) x0 x1 x2 x3 x4 x5 x6 x7 x8 x9 x10 (ix2 n k)) x11 x12 :=
    funext fun k => v53_row x0 x1 x2 x3 x4 x5 x6 x7 x8 x9 x10 x11 x12 n k
  have h48 : (fun k => val_main_v48 (F := Ideal) x0 x1 x2 x3 x4 x5 x6 x7 x8 x9 x10 (ix2 n k))
      = fun k => flow (rowId x1) (msgs (Host.gather gather_S50000x64_S800000x1_S800000x64_1_0_n_n_0_1_164 x0 (colIdx x1)) x2 (rowId x1) (colId x1) x3 x4 x5 x6 x7 x8 x9 x10) (ix2 n k) :=
    funext fun k => v48_apply x0 x1 x2 x3 x4 x5 x6 x7 x8 x9 x10 n k
  rw [h53, h48]
  rfl

/-- The reference's result is the specification's, with the node rows gathered at the normalised column identifiers. -/
theorem ref_eq (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (x7 : (⟨S128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) (x11 : (⟨S128x128, .f32⟩ : BufTy).Contents (Elt Ideal))
    (x12 : (⟨S128, .f32⟩ : BufTy).Contents (Elt Ideal)) (x13 : (⟨S128x64, .f32⟩ : BufTy).Contents (Elt Ideal))
    (x14 : (⟨S64, .f32⟩ : BufTy).Contents (Elt Ideal)) :
    Cert.ReferenceIdeal.Read.val_main_v58 (F := Ideal) x0 x1 x2 x3 x4 x5 x6 x7 x8 x9 x10 x11 x12 x13 x14
      = result (Host.gather gather_S50000x64_S800000x1_S800000x64_1_0_n_n_0_1_164 x0 (colIdx x1)) x2 (rowId x1) (colId x1)
          x3 x4 x5 x6 x7 x8 x9 x10 x11 x12 x13 x14 := by
  funext i
  obtain ⟨n, j, rfl⟩ : ∃ (n : Fin 50000) (j : Fin 64), i = ix2 n j := ⟨i 0, i 1, eq_ix2 i⟩
  rw [v58_mlp]
  rfl

end Cert.ReferenceIdeal.RefValue

end
-- ==== Proof.PreRange.lean ====
import proofs.«403569_j42047729828006_3_alg».proof.Defs
import proofs.«403569_j42047729828006_3_alg».proof.Proof.Spec
import Idealize.ShloMosaic.Lib.ReduceAll
import Idealize.ShloMosaic.Lib.Pipeline.Value

/-!
The precondition's last conjunct says that every column identifier lies in `[-50000, 50000)`: the identifiers that
index the node array in range, a negative one counted from the end. Read at one edge it gives the two signed
comparisons, and with them the normalised identifier lies in `[0, 49999]`.
-/

noncomputable section

namespace Cert.Proof.PreRange

open Idealize.ShloMosaic Idealize.ShloMosaic.TcCoe Idealize.ShloMosaic.ValueIdx Idealize.SL.Sem Cert.Flow

instance : Subsingleton Cert.Pre_finite_inputs.S_.Idx := ⟨fun a b => funext fun d => d.elim0⟩

/-- The range conjunct alone, as the precondition prints it: the conjunction over all edges of
    `-50000 ≤ col e` and `col e < 50000`. -/
theorem col_bounds_of_fn [Cert.Pre_finite_inputs.Facts]
    (a0 : FVec Ideal Cert.Pre_finite_inputs.S50000x64 .f32) (a1 : IVec Cert.Pre_finite_inputs.S2x800000 32)
    (a2 : FVec Ideal Cert.Pre_finite_inputs.S800000x64 .f32) (a3 : FVec Ideal Cert.Pre_finite_inputs.S128x128 .f32)
    (a4 : FVec Ideal Cert.Pre_finite_inputs.S128 .f32) (a5 : FVec Ideal Cert.Pre_finite_inputs.S128x64 .f32)
    (a6 : FVec Ideal Cert.Pre_finite_inputs.S64 .f32) (a7 : FVec Ideal Cert.Pre_finite_inputs.S128x128 .f32)
    (a8 : FVec Ideal Cert.Pre_finite_inputs.S128 .f32) (a9 : FVec Ideal Cert.Pre_finite_inputs.S128x64 .f32)
    (a10 : FVec Ideal Cert.Pre_finite_inputs.S64 .f32) (a11 : FVec Ideal Cert.Pre_finite_inputs.S128x128 .f32)
    (a12 : FVec Ideal Cert.Pre_finite_inputs.S128 .f32) (a13 : FVec Ideal Cert.Pre_finite_inputs.S128x64 .f32)
    (a14 : FVec Ideal Cert.Pre_finite_inputs.S64 .f32)
    (h : Cert.Pre_finite_inputs.fn (F := Ideal) a0 a1 a2 a3 a4 a5 a6 a7 a8 a9 a10 a11 a12 a13 a14 = fun _ => 1#1)
    (e : Fin 800000) :
    IntOp.cmpi .sge (colId a1 e) 4294917296#32 = 1#1 ∧ IntOp.cmpi .slt (colId a1 e) 50000#32 = 1#1 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  have h1 := ((andi_one _ _).mp h0).2
  have h2 := Host.reduce_andi_all _ _ _ _ _ h1 (ix1 e)
  obtain ⟨h3a, h3b⟩ := (andi_one _ _).mp h2
  -- the column identifier of edge `e` read through the slice of row 1 and its reshape
  have hcol : shapeCast Cert.Pre_finite_inputs.S800000 (extractStridedSlice Cert.Pre_finite_inputs.S1x800000 ![1, 0] a1
        Cert.Pre_finite_inputs.Facts.slices_S2x800000_S1x800000_1_0)
      Cert.Pre_finite_inputs.Facts.shapeCasts_S1x800000_S800000 (ix1 e) = colId a1 e := by
    rw [shapeCast_apply _ Cert.Pre_finite_inputs.Facts.shapeCasts_S1x800000_S800000 (ix1 e) (ix2 (0 : Fin 1) e)
      (by rewrite [Shape.rowMajor_val_two, Shape.rowMajor_val_one]; show 0 * 800000 + e.val = e.val; omega)]
    exact extractStridedSlice_apply ![1, 0] a1 Cert.Pre_finite_inputs.Facts.slices_S2x800000_S1x800000_1_0
      (ix2 (0 : Fin 1) e) (ix2 (1 : Fin 2) e) (fun a => match a with
        | ⟨0, _⟩ => rfl
        | ⟨1, _⟩ => by show e.val = 0 + e.val; omega)
  rw [← hcol]
  exact ⟨h3a, h3b⟩

/-- The same from the kernel's precondition, on every device, with what it gives: the normalised column identifier of
    every edge lies in `[0, 49999]`. -/
theorem inRange_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 800000) :
    IntOp.andi
      (IntOp.cmpi .sge (normIdx (colId (m ((c.tc : Thread Cert.KernelIdeal.nD Cert.KernelIdeal.τ).loc Cert.KernelIdeal.main_arg1)) e)) 0#32)
      (IntOp.cmpi .sle (normIdx (colId (m ((c.tc : Thread Cert.KernelIdeal.nD Cert.KernelIdeal.τ).loc Cert.KernelIdeal.main_arg1)) e)) 49999#32)
      = 1#1 := by
  have hb := col_bounds_of_fn _ _ _ _ _ _ _ _ _ _ _ _ _ _ _ (hpre c) e
  exact inRange_of_bounds _ hb.1 hb.2

end Cert.Proof.PreRange

end
-- ==== Proof.lean ====
/-
  A graph-network layer: per edge, two perceptrons of the row `[x[col] | edge_attr]`, one kept where `row < col`, the
  other where `row > col`; per node, the sums of its edges' messages (a row scatter-add by `row`); then a node
  perceptron. The kernel computes the messages in blocks of 16000 edges as ONE 128-wide row `[in | out]`, adds them
  with ONE scatter and runs the node perceptron in blocks of 10000 nodes; the reference adds the two 64-wide halves
  with two scatters and joins the sums. Over the extended reals the two are the same function: a sum of joined rows is
  the joined row of the sums, entry by entry, and tiling changes nothing. The gather differs outside the valid index
  range (the kernel fills, the reference clamps), so the claim is stated for column identifiers in `[-50000, 50000)`,
  where the node array is indexed in range. Finiteness of the inputs is not used.
-/
import proofs.«403569_j42047729828006_3_alg».proof.Defs
import proofs.«403569_j42047729828006_3_alg».proof.Proof.Gen.Kernel
import proofs.«403569_j42047729828006_3_alg».proof.Proof.Gen.Kernel.Frame
import proofs.«403569_j42047729828006_3_alg».proof.Proof.Gen.KernelIdeal
import proofs.«403569_j42047729828006_3_alg».proof.Proof.Gen.KernelIdeal.Frame
import proofs.«403569_j42047729828006_3_alg».proof.Proof.Gen.ReferenceIdeal
import proofs.«403569_j42047729828006_3_alg».proof.Proof.Gen.ReferenceIdeal.Run
import proofs.«403569_j42047729828006_3_alg».proof.Proof.Gen.ReferenceIdeal.Read
import proofs.«403569_j42047729828006_3_alg».proof.Proof.Gen.Pre_finite_inputs
import proofs.«403569_j42047729828006_3_alg».proof.Proof.KernelRun
import proofs.«403569_j42047729828006_3_alg».proof.Proof.KernelValue
import proofs.«403569_j42047729828006_3_alg».proof.Proof.RefValue
import proofs.«403569_j42047729828006_3_alg».proof.Proof.PreRange
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the specification's result of the (agreeing) arguments: the kernel by its run with the result
    named and the value of that array, the reference by its run and its last stage read index by index; the two gathers
    are one function (the same rows of the same array at the same normalised identifiers). -/
theorem algebraic : Cert.algebraic_KernelIdeal_ReferenceIdeal := by
  intro m ρ m' ρ' hpre hagree
  refine ⟨fun c => Cert.Flow.result
      (Host.gather Cert.KernelIdeal.gather_S50000x64_S800000x1_S800000x64_1_0_n_n_0_1_164 (m ((c.tc : Thread Cert.KernelIdeal.nD Cert.KernelIdeal.τ).loc Cert.KernelIdeal.main_arg0)) (Cert.Flow.colIdx (m ((c.tc : Thread Cert.KernelIdeal.nD Cert.KernelIdeal.τ).loc Cert.KernelIdeal.main_arg1))))
      (m ((c.tc : Thread Cert.KernelIdeal.nD Cert.KernelIdeal.τ).loc Cert.KernelIdeal.main_arg2)) (Cert.Flow.rowId (m ((c.tc : Thread Cert.KernelIdeal.nD Cert.KernelIdeal.τ).loc Cert.KernelIdeal.main_arg1))) (Cert.Flow.colId (m ((c.tc : Thread Cert.KernelIdeal.nD Cert.KernelIdeal.τ).loc Cert.KernelIdeal.main_arg1)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KernelValue.result_value m ρ c (Cert.Proof.PreRange.inRange_of_pre m hpre c)), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v58_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2.1, (hagree c).2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
